-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_v30 : IVec S_ 1) (main_v32 : IVec S800000 1) (main_c_12 : IVec S_ 32) : IVec S_ 1 :=
  let main_v33 : IVec S800000 32 := broadcastInDim S800000 ![] bcast_S_S800000 main_c_12
  let main_v34 : IVec S800000 1 := cmpi .slt main_arg2 main_v33
  let main_v35 : IVec S800000 1 := andi main_v32 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v30 main_v36
  main_v37

def fn_part1 {F : FTy → Type} [FloatOps F] (main_arg1 : IVec S800000 32) (main_arg2 : IVec S800000 32) (main_arg6 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  let main_c_11 : IVec S_ 32 := constantI S_ 32 0#32
  let main_v31 : IVec S800000 32 := broadcastInDim S800000 ![] bcast_S_S800000 main_c_11
  let main_v32 : IVec S800000 1 := cmpi .sge main_arg2 main_v31
  let main_c_12 : IVec S_ 32 := constantI S_ 32 50000#32
  fn_part2 (F := F) main_arg2 main_v30 main_v32 main_c_12

def fn {F : FTy → Type} [FloatOps F] (main_arg0 : FVec F S50000x64 .f32) (main_arg1 : IVec S800000 32) (main_arg2 : IVec S800000 32) (main_arg3 : FVec F S64x128 .f32) (main_arg4 : FVec F S64 .f32) (main_arg5 : FVec F S1x128 .f32) (main_arg6 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg2 main_arg6 main_v13 main_v16
-- ==== Kernel.lean ====
abbrev S50000x64 : Shape := ⟨2, ![50000, 64]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S64x64 : Shape := ⟨2, ![64, 64]⟩
abbrev S1x64 : Shape := ⟨2, ![1, 64]⟩
abbrev S2000x64 : Shape := ⟨2, ![2000, 64]⟩
abbrev S64x1 : Shape := ⟨2, ![64, 1]⟩
abbrev S2000x1 : Shape := ⟨2, ![2000, 1]⟩
abbrev S1x2000x1 : Shape := ⟨3, ![1, 2000, 1]⟩
abbrev S1x1x1 : Shape := ⟨3, ![1, 1, 1]⟩
abbrev S50000x1 : Shape := ⟨2, ![50000, 1]⟩

abbrev nBuf : Space → Nat
  | .hbm => 75
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S1x128, .f32⟩
  | .hbm, ⟨6, _⟩ => ⟨S1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x64, .f32⟩
  | .hbm, ⟨26, _⟩ => ⟨S800000x64, .i1⟩
  | .hbm, ⟨27, _⟩ => ⟨S_, .f32⟩
  | .hbm, ⟨28, _⟩ => ⟨S800000x64, .f32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S1, .i32⟩
  | .hbm, ⟨39, _⟩ => ⟨S_, .i32⟩
  | .hbm, ⟨40, _⟩ => ⟨S800000x1, .i32⟩
  | .hbm, ⟨41, _⟩ => ⟨S800000x1, .i1⟩
  | .hbm, ⟨42, _⟩ => ⟨S1x1, .i32⟩
  | .hbm, ⟨43, _⟩ => ⟨S800000x1, .i32⟩
  | .hbm, ⟨44, _⟩ => ⟨S800000x1, .i1⟩
  | .hbm, ⟨45, _⟩ => ⟨S800000x1, .i1⟩
  | .hbm, ⟨46, _⟩ => ⟨S_, .i1⟩
  | .hbm, ⟨47, _⟩ => ⟨S800000, .i1⟩
  | .hbm, ⟨48, _⟩ => ⟨S800000x64, .f32⟩
  | .hbm, ⟨49, _⟩ => ⟨S800000x64, .i1⟩
  | .hbm, ⟨50, _⟩ => ⟨S_, .f32⟩
  | .hbm, ⟨51, _⟩ => ⟨S800000x64, .f32⟩
  | .hbm, ⟨52, _⟩ => ⟨S800000x64, .f32⟩
  | .hbm, ⟨53, _⟩ => ⟨S64x64, .f32⟩
  | .hbm, ⟨54, _⟩ => ⟨S64x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x1, .f32⟩
  | .hbm, ⟨59, _⟩ => ⟨S1x1, .f32⟩
  | .hbm, ⟨60, _⟩ => ⟨S800000x64, .f32⟩
  | .hbm, ⟨61, _⟩ => ⟨S800000x1, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S_, .f32⟩
  | .hbm, ⟨67, _⟩ => ⟨S50000x1, .f32⟩
  | .hbm, ⟨68, _⟩ => ⟨S800000x1, .i32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x64, .f32⟩
  | .hbm, ⟨74, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x1, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9_0 : Ref sig .tc := ⟨.hbm, 60, rfl⟩
abbrev main_v9_1 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_1 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S64x128_S64x64_0_0 : S64x128.Slices ![0, 0] S64x64
  slices_S64x128_S64x64_0_64 : S64x128.Slices ![0, 64] S64x64
  slices_S1x128_S1x64_0_0 : S1x128.Slices ![0, 0] S1x64
  slices_S1x128_S1x64_0_64 : S1x128.Slices ![0, 64] S1x64
  shapeCasts_S64_S1x64 : S64.ShapeCasts S1x64
  shapeCasts_S1_S1x1 : S1.ShapeCasts S1x1
  inb_S1x1_S1x1_0_0 : ∀ a, (![0, 0] : Fin 2 → Nat) a + S1x1.size a ≤ S1x1.size a
  h_S1x1 : 0 < S1x1.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  shapeCasts_S1x1_S1x1 : S1x1.ShapeCasts S1x1
  broadcasts_S1x1_S2000x1 : S1x1.Broadcasts S2000x1
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  broadcasts_S1x64_S2000x64 : S1x64.Broadcasts S2000x64
  broadcasts_S2000x1_S2000x64 : S2000x1.Broadcasts S2000x64
  inb_S2000x1_S2000x1_0_0 : ∀ a, (![0, 0] : Fin 2 → Nat) a + S2000x1.size a ≤ S2000x1.size a
  h_S2000x1 : 0 < S2000x1.numel
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S2000x64_S64x1_S2000x1_1_0_0_1_n_n_wf : DotDims.WF S2000x64 S64x1 S2000x1 [1] [0] [0] [1] [] []
  dot_S2000x64_S64x64_S2000x64_1_0_0_1_n_n_wf : DotDims.WF S2000x64 S64x64 S2000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S800000x64.size a
  hwx1_1 : ∀ i : grid1.Coords, EltTy.bits .f32 = 32 ∨ (Rect.block (s := S800000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S800000x64.size a
  hwx1_2 : ∀ i : grid1.Coords, EltTy.bits .f32 = 32 ∨ (Rect.block (s := S800000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S800000x64.size a
  hwx1_9 : ∀ i : grid1.Coords, EltTy.bits .f32 = 32 ∨ (Rect.block (s := S800000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S800000x1.size a
  hwx1_10 : ∀ i : grid1.Coords, EltTy.bits .f32 = 32 ∨ (Rect.block (s := S800000x1) S2000x1.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9_0) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v9_1) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x64 : Shape := ⟨2, ![128, 64]⟩
abbrev S1x64 : Shape := ⟨2, ![1, 64]⟩
abbrev S128x1 : Shape := ⟨2, ![128, 1]⟩
abbrev S1x1 : Shape := ⟨2, ![1, 1]⟩
abbrev S50000x1 : Shape := ⟨2, ![50000, 1]⟩

abbrev nBuf : Space → Nat
  | .hbm => 60
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64, .f32⟩
  | .hbm, ⟨5, _⟩ => ⟨S1x128, .f32⟩
  | .hbm, ⟨6, _⟩ => ⟨S1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x128, .f32⟩
  | .hbm, ⟨26, _⟩ => ⟨S128x64, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S128x1, .f32⟩
  | .hbm, ⟨35, _⟩ => ⟨S800000x1, .f32⟩
  | .hbm, ⟨36, _⟩ => ⟨S1x1, .f32⟩
  | .hbm, ⟨37, _⟩ => ⟨S800000x1, .f32⟩
  | .hbm, ⟨38, _⟩ => ⟨S800000x1, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S800000x1, .f32⟩
  | .hbm, ⟨43, _⟩ => ⟨S800000x1, .f32⟩
  | .hbm, ⟨44, _⟩ => ⟨S800000x1, .f32⟩
  | .hbm, ⟨45, _⟩ => ⟨S_, .f32⟩
  | .hbm, ⟨46, _⟩ => ⟨S50000x1, .f32⟩
  | .hbm, ⟨47, _⟩ => ⟨S800000x1, .i32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S50000x64, .f32⟩
  | .hbm, ⟨59, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S1_d0 : S800000x1.ReducesTo [0] S1
  h_S_ : 0 < S_.numel
  bcast_S_S50000x1 : S_.BroadcastsInDim S50000x1 (![] : Fin 0 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The function both programs compute, stated once over the extended reals, index by index.

  An edge `e` has two endpoint rows `hs e ·` and `ht e ·` (64 entries each: the node features gathered at the edge's
  source and at its target). Its SCORE is the inner product of the concatenated 128-entry row with the score weights plus
  the score bias, written as the sum over the source half (against the first 64 weights `ws`), plus the sum over the
  target half (against the last 64 weights `wt`), plus the bias. The scores are shifted by their largest, over all
  800000 edges, before the exponential: `weight e = exp (score e - top)`. The edge's VALUE row is, for each of the 64
  output features `j`, `max (hs e · fs j + ht e · ft j + fb j) 0`, with `fs`, `ft` the two halves of the value weights.
  What is summed onto the target nodes afterwards is `value e j * weight e` (the numerator) and `weight e` (the
  normaliser).

  The one algebraic fact the two programs differ by: a sum over 128 concatenated entries is the sum over the first 64
  plus the sum over the last 64 (`sum_halves`; associativity and commutativity of addition on the extended reals: no
  distributivity, hence no finiteness), and the largest score over all edges is the largest of the 400 blocks' largest.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SEx64 : Shape := ⟨2, ![800000, 64]⟩
abbrev SEx1 : Shape := ⟨2, ![800000, 1]⟩
abbrev S64x64 : Shape := ⟨2, ![64, 64]⟩
abbrev S1x64 : Shape := ⟨2, ![1, 64]⟩
abbrev S1x1 : Shape := ⟨2, ![1, 1]⟩

/-- Column `k` of the first half of a 128-wide row. -/
abbrev lo (k : Fin 64) : Fin 128 := ⟨k.val, by omega⟩
/-- Column `k` of the second half of a 128-wide row. -/
abbrev hi (k : Fin 64) : Fin 128 := ⟨64 + k.val, by omega⟩

/-- The first 64 columns of an [n, 128] array. -/
def loHalf {n : Nat} (w : (⟨2, ![n, 128]⟩ : Shape).Idx → EReal) : (⟨2, ![n, 64]⟩ : Shape).Idx → EReal :=
  fun i => w (ix2 (i 0) (lo (i 1)))
/-- The last 64 columns of an [n, 128] array. -/
def hiHalf {n : Nat} (w : (⟨2, ![n, 128]⟩ : Shape).Idx → EReal) : (⟨2, ![n, 64]⟩ : Shape).Idx → EReal :=
  fun i => w (ix2 (i 0) (hi (i 1)))
/-- A vector of `n` entries as a [1, n] row. -/
def asRow {n : Nat} (b : (⟨1, ![n]⟩ : Shape).Idx → EReal) : (⟨2, ![1, n]⟩ : Shape).Idx → EReal :=
  fun i => b (ix1 (i 1))

variable (hs ht : SEx64.Idx → EReal) (fs ft : S64x64.Idx → EReal) (fb : S1x64.Idx → EReal)
  (ws wt : S1x64.Idx → EReal) (wb : S1x1.Idx → EReal)

/-- The attention score of edge `e`: source half, target half, bias. -/
def score (e : Fin 800000) : EReal :=
  (∑ k : Fin 64, hs (ix2 e k) * ws (ix2 0 k)) + (∑ k : Fin 64, ht (ix2 e k) * wt (ix2 0 k)) + wb (ix2 0 0)

/-- The largest score over all edges (`⊥` is the largest of nothing). -/
def top : EReal := (Finset.univ : Finset (Fin 800000)).sup (score hs ht ws wt wb)

/-- Output feature `j` of edge `e`'s value row, rectified. -/
def value (e : Fin 800000) (j : Fin 64) : EReal :=
  max ((∑ k : Fin 64, hs (ix2 e k) * fs (ix2 j k)) + (∑ k : Fin 64, ht (ix2 e k) * ft (ix2 j k)) + fb (ix2 0 j)) 0

/-- The edge's weight against a given shift `g`: the exponential of its score minus `g`. -/
def weightAt (g : EReal) (e : Fin 800000) : EReal := Ideal.exp (score hs ht ws wt wb e - g)

/-- Value times weight, against a given shift. -/
def numerAt (g : EReal) : SEx64.Idx → EReal :=
  fun i => value hs ht fs ft fb (i 0) (i 1) * weightAt hs ht ws wt wb g (i 0)

/-- The weight as an [800000, 1] column, against a given shift. -/
def denomAt (g : EReal) : SEx1.Idx → EReal := fun i => weightAt hs ht ws wt wb g (i 0)

/-- What is summed onto the target node's row: value times weight, the shift the largest score. -/
def numer : SEx64.Idx → EReal := numerAt hs ht fs ft fb ws wt wb (top hs ht ws wt wb)

/-- What is summed onto the target node's normaliser: the weight, the shift the largest score. -/
def denom : SEx1.Idx → EReal := denomAt hs ht ws wt wb (top hs ht ws wt wb)

/-- A sum over 128 columns is the sum over the first 64 plus the sum over the last 64. -/
theorem sum_halves (f : Fin 128 → EReal) : ∑ k : Fin 128, f k = (∑ k : Fin 64, f (lo k)) + ∑ k : Fin 64, f (hi k) :=
  Fin.sum_univ_add (a := 64) (b := 64) f

/-- The pattern of negative infinity denotes `⊥`: the value both programs start their maximum from. -/
theorem ofBits_neg_inf : Ideal.ofBits .f32 0xFF800000#32 = (⊥ : EReal) := by
  simp [Ideal.ofBits, Ideal.ieee]

/-- A fold of `max` from `⊥` over a finite index set is the supremum over it. -/
theorem fold_max_bot {ι : Type} (s : Finset ι) (f : ι → EReal) : s.fold max ⊥ f = s.sup f := rfl

end Cert.Spec

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.Region0.lean ====
/-
  The first pass of the kernel, read as a value: the largest attention score over all 800000 edges.

  The pass walks the two gathered row arrays in 400 blocks of 2000 rows. At each block it forms, for every row `p`,
  the score of that row — the inner product of the source row with the first 64 score weights, plus the inner product
  of the target row with the last 64, plus the bias — takes the largest of the 2000 scores, and keeps the maximum of
  that and a running value held in a one-entry output block. The running value is reset to negative infinity at the
  first block, and the block is written to the one-entry output array once, after the last block.

  Row `p` of block `t` is row `2000 t + p` of the whole arrays, and the weights and the bias are the same one block
  at every point, so the body's row score at block `t` is the specification's score of edge `2000 t + p`. Writing
  `below m` for the largest score among the edges before block `m` (the supremum over the edges `e < 2000 m`; `⊥`
  for `m = 0`), one more block gives `below (m + 1) = max (below m) (the block's largest score)`, which is exactly the
  body's update; so after block `n` the output block holds `below (n + 1)`, by induction on `n`, and after the last
  block it holds `below 400`, the supremum over all edges. Only order facts of `max` on the extended reals are used:
  no finiteness.
-/
import proofs.«431220_j40956808135018_4_alg».proof.Proof.Gen.KernelIdeal.Frame
import proofs.«431220_j40956808135018_4_alg».proof.Proof.Spec
import proofs.«431220_j40956808135018_4_alg».proof.Proof.LibDotPlain
import Idealize.ShloMosaic.Lib.Pipeline.Value
import Idealize.ShloMosaic.Lib.ValueLayout
import Idealize.ShloMosaic.Lib.Tactic

set_option maxRecDepth 16384

noncomputable section

namespace Cert.KernelIdeal.Region0

open Idealize.ShloMosaic Idealize.ShloMosaic.TcCoe Idealize.ShloMosaic.ValueIdx Idealize.SL.Sem
open Idealize.ShloMosaic.Tactic
open Idealize.ShloMosaic.Pipeline (Dat)
open Cert.KernelIdeal Cert.KernelIdeal.Gen

/-! ## The largest of a function over the first blocks of 2000 rows -/

section Tops
variable (f : Fin 800000 → EReal)

/-- Row `p` of block `n`, as a row of the whole array. -/
def rowOf (n : ℕ) (hn : n < 400) (p : Fin 2000) : Fin 800000 := ⟨2000 * n + p.val, by have := p.isLt; omega⟩

/-- The largest value of `f` on the rows of the blocks before block `m`. -/
def below (m : ℕ) : EReal := (Finset.univ.filter fun e : Fin 800000 => e.val < 2000 * m).sup f

/-- Before block 0 there is no row. -/
theorem below_zero : below f 0 = ⊥ := by
  unfold below
  rw [Finset.filter_false_of_mem fun e _ => by omega]
  exact Finset.sup_empty

/-- One more block: the largest so far against the largest of the new block's 2000 rows. -/
theorem below_succ (n : ℕ) (hn : n < 400) :
    below f (n + 1) = max (below f n) ((Finset.univ : Finset (Fin 2000)).sup fun p => f (rowOf n hn p)) := by
  unfold below
  apply le_antisymm
  · refine Finset.sup_le fun e he => ?_
    have he' : e.val < 2000 * (n + 1) := (Finset.mem_filter.mp he).2
    by_cases h : e.val < 2000 * n
    · exact le_trans (Finset.le_sup (f := f) (Finset.mem_filter.mpr ⟨Finset.mem_univ _, h⟩)) (le_max_left _ _)
    · have hr : e = rowOf n hn ⟨e.val - 2000 * n, by omega⟩ :=
        Fin.ext (by show e.val = 2000 * n + (e.val - 2000 * n); omega)
      exact le_trans (le_trans (le_of_eq (congrArg f hr))
        (Finset.le_sup (f := fun p => f (rowOf n hn p)) (Finset.mem_univ _))) (le_max_right _ _)
  · refine max_le (Finset.sup_mono fun e he => ?_) (Finset.sup_le fun p _ => ?_)
    · exact Finset.mem_filter.mpr ⟨Finset.mem_univ _, by have := (Finset.mem_filter.mp he).2; omega⟩
    · exact Finset.le_sup (f := f) (Finset.mem_filter.mpr ⟨Finset.mem_univ _, by
        show 2000 * n + p.val < 2000 * (n + 1)
        have := p.isLt; omega⟩)

/-- After the 400 blocks every row has been met. -/
theorem below_all : below f 400 = (Finset.univ : Finset (Fin 800000)).sup f := by
  unfold below
  rw [Finset.filter_true_of_mem fun e _ => by have := e.isLt; omega]

end Tops

/-! ## What each case of the body leaves in the output block -/

variable {F : FTy → Type} [FloatOps F]

/-- The zero offsets of every load and store of the body. -/
theorem hz : (![0, 0] : Fin 2 → Nat) = fun _ => 0 := funext fun a => by fin_cases a <;> rfl

set_option maxHeartbeats 400000 in
/-- At every point but the first the body's one store covers the output block: it leaves the payload of the six
    whole blocks it loaded, the output block's running contents `xo` among them. -/
theorem out_B (c : Dev nD) (i : grid0.Coords)
    (a1 : Memref sig .tc .vmem S2000x64 .f32) (h1 : a1.IsWhole) (a2 : Memref sig .tc .vmem S2000x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x1 .f32) (h5 : a5.IsWhole) (a6 : Memref sig .tc .vmem S1x1 .f32) (h6 : a6.IsWhole)
    (hc : ¬cond0_0 i) (x0 x1 : Vec F S2000x64 .f32) (x2 x3 : Vec F S1x64 .f32) (x4 xo : Vec F S1x1 .f32) :
    out0_B_5 c i a1 h1 a2 h2 a3 h3 a4 h4 a5 h5 a6 h6 hc x0 x1 x2 x3 x4 xo = k0_pay2 x0 x2 x1 x3 x4 xo := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread,
    h6.read_unread, View.ld_unit_zero (S := S2000x64) hz, View.ld_unit_zero (S := S1x64) hz,
    View.ld_unit_zero (S := S1x1) hz]

set_option maxHeartbeats 400000 in
/-- At the first point the body first stores the block of negative infinity, then reads it back as the running
    contents: two covering stores, the later one the same payload over that block. -/
theorem out_A (c : Dev nD) (i : grid0.Coords)
    (a1 : Memref sig .tc .vmem S2000x64 .f32) (h1 : a1.IsWhole) (a2 : Memref sig .tc .vmem S2000x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x1 .f32) (h5 : a5.IsWhole) (a6 : Memref sig .tc .vmem S1x1 .f32) (h6 : a6.IsWhole)
    (hc : cond0_0 i) (x0 x1 : Vec F S2000x64 .f32) (x2 x3 : Vec F S1x64 .f32) (x4 : Vec F S1x1 .f32) :
    out0_A_5 c i a1 h1 a2 h2 a3 h3 a4 h4 a5 h5 a6 h6 hc x0 x1 x2 x3 x4 = k0_pay2 x0 x2 x1 x3 x4 k0_pay1 := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S2000x64) hz, View.ld_unit_zero (S := S1x64) hz, View.ld_unit_zero (S := S1x1) hz]

/-! ## The body's arithmetic at its one index -/

/-- The kernel's product record is the plain rows-by-column one. -/
theorem dot_eq : dot_S2000x64_S64x1_S2000x1_1_0_0_1_n_n = DotDims.plain 2000 64 1 := rfl

/-- One product of the body: the 2000 rows of x against the weight row w laid as a column. -/
theorem rowdot (x : FVec Ideal S2000x64 .f32) (w : FVec Ideal S1x64 .f32) (p : Fin 2000) :
    matmul dot_S2000x64_S64x1_S2000x1_1_0_0_1_n_n (some .fp32)
        (shapeCast S2000x64 x shapeCasts_S2000x64_S2000x64)
        (transpose S64x1 [1, 0] (shapeCast S1x64 w shapeCasts_S1x64_S1x64) transposes_S1x64_p1_0_S64x1)
        (constant (F := Ideal) S2000x1 .f32 0x00000000#32) (ix2 p (0 : Fin 1))
      = ∑ k : Fin 64, x (ix2 p k) * w (ix2 0 k) := by
  rw [shapeCast_self, shapeCast_self, dot_eq]
  refine ((Ideal.matmul_constant_zero_apply (DotDims.plain 2000 64 1) (some .fp32) x _ _).trans
    (Cert.LibDot.sum_plain 2000 64 1 x _ p 0)).trans ?_
  refine Finset.sum_congr rfl fun k _ => ?_
  rw [transpose_ix2_apply]

/-- The 2000 row scores of a block, as the body computes them. -/
def rowScores (x0 x1 : FVec Ideal S2000x64 .f32) (x2 x3 : FVec Ideal S1x64 .f32) (x4 : FVec Ideal S1x1 .f32) :
    FVec Ideal S2000x1 .f32 :=
  addf (addf
      (matmul dot_S2000x64_S64x1_S2000x1_1_0_0_1_n_n (some .fp32)
        (shapeCast S2000x64 x0 shapeCasts_S2000x64_S2000x64)
        (transpose S64x1 [1, 0] (shapeCast S1x64 x2 shapeCasts_S1x64_S1x64) transposes_S1x64_p1_0_S64x1)
        (constant (F := Ideal) S2000x1 .f32 0x00000000#32))
      (matmul dot_S2000x64_S64x1_S2000x1_1_0_0_1_n_n (some .fp32)
        (shapeCast S2000x64 x1 shapeCasts_S2000x64_S2000x64)
        (transpose S64x1 [1, 0] (shapeCast S1x64 x3 shapeCasts_S1x64_S1x64) transposes_S1x64_p1_0_S64x1)
        (constant (F := Ideal) S2000x1 .f32 0x00000000#32)))
    (broadcastTo S2000x1 (shapeCast S1x1 x4 shapeCasts_S1x1_S1x1) broadcasts_S1x1_S2000x1)

/-- Row `p`'s score in the block: the two inner products plus the bias. -/
theorem rowScores_apply (x0 x1 : FVec Ideal S2000x64 .f32) (x2 x3 : FVec Ideal S1x64 .f32) (x4 : FVec Ideal S1x1 .f32)
    (p : Fin 2000) :
    rowScores x0 x1 x2 x3 x4 (ix2 p (0 : Fin 1))
      = (∑ k : Fin 64, x0 (ix2 p k) * x2 (ix2 0 k)) + (∑ k : Fin 64, x1 (ix2 p k) * x3 (ix2 0 k)) + x4 (ix2 0 0) := by
  unfold rowScores
  rw [addf_apply, addf_apply, rowdot, rowdot, shapeCast_self, broadcastTo_1b_ab_apply]

/-- The maximum over both reduced axes of a [1, 2000, 1] array, from negative infinity: the largest of its 2000 entries. -/
theorem reduce_rows (src : FVec Ideal S1x2000x1 .f32) (hφ : FKind.Formats .f32)
    (hacc : (0xFF800000#32 : BitVec 32) = FKind.maximumf.neutral .f32 hφ) (j : S1.Idx) :
    multiReduction .maximumf [1, 2] S1 src 0xFF800000#32 reduces_S1x2000x1_S1 hφ hacc j
      = (Finset.univ : Finset (Fin 2000)).sup fun p => src (ix3 (0 : Fin 1) p (0 : Fin 1)) := by
  rw [multiReduction_maximumf_eq_fold]
  rw [Finset.filter_true_of_mem fun i _ => funext fun b => Fin.ext (by
    have h1 := (reduces_S1x2000x1_S1.drop i b).isLt; have h2 := (j b).isLt
    have h3 : S1.size b = 1 := by match b with | ⟨0, _⟩ => rfl
    omega)]
  show Finset.univ.fold max (Ideal.ofBits .f32 0xFF800000#32) src = _
  rw [Cert.Spec.ofBits_neg_inf, Cert.Spec.fold_max_bot]
  apply le_antisymm
  · refine Finset.sup_le fun i _ => ?_
    have hi : i = ix3 (0 : Fin 1) (i 1) (0 : Fin 1) := by
      funext a
      match a with
      | ⟨0, _⟩ => exact Fin.ext (by have h : (i 0).val < 1 := (i 0).isLt; show (i 0).val = 0; omega)
      | ⟨1, _⟩ => rfl
      | ⟨2, _⟩ => exact Fin.ext (by have h : (i 2).val < 1 := (i 2).isLt; show (i 2).val = 0; omega)
    rw [hi]
    exact Finset.le_sup (f := fun p => src (ix3 (0 : Fin 1) p (0 : Fin 1))) (Finset.mem_univ (i 1))
  · exact Finset.sup_le fun p _ => Finset.le_sup (f := src) (Finset.mem_univ _)

/-- The body's payload is: the running contents against the block's largest row score. -/
theorem pay2_eq (x0 x1 : Vec Ideal S2000x64 .f32) (x2 x3 : Vec Ideal S1x64 .f32) (x4 xo : Vec Ideal S1x1 .f32) :
    k0_pay2 (F := Ideal) x0 x2 x1 x3 x4 xo
      = maximumf (shapeCast S1x1 (xo : FVec Ideal S1x1 .f32) shapeCasts_S1x1_S1x1)
          (broadcast S1x1 (extractAt ![0, 0, 0]
            (shapeCast S1x1x1 (multiReduction .maximumf [1, 2] S1
              (shapeCast S1x2000x1 (rowScores x0 x1 x2 x3 x4) shapeCasts_S2000x1_S1x2000x1)
              0xFF800000#32 reduces_S1x2000x1_S1 (.inl rfl) rfl) shapeCasts_S1_S1x1x1) inpos_S1x1x1_p0_0_0)) := rfl

set_option maxHeartbeats 400000 in
/-- At its one index the payload is the running contents against the largest of the block's 2000 row scores. -/
theorem pay2_apply (x0 x1 : Vec Ideal S2000x64 .f32) (x2 x3 : Vec Ideal S1x64 .f32) (x4 xo : Vec Ideal S1x1 .f32) :
    k0_pay2 (F := Ideal) x0 x2 x1 x3 x4 xo (ix2 0 0)
      = max (xo (ix2 0 0)) ((Finset.univ : Finset (Fin 2000)).sup fun p =>
          (∑ k : Fin 64, x0 (ix2 p k) * x2 (ix2 0 k)) + (∑ k : Fin 64, x1 (ix2 p k) * x3 (ix2 0 k)) + x4 (ix2 0 0)) := by
  rw [pay2_eq, maximumf_apply, shapeCast_self, broadcast_apply]
  refine congrArg (max (xo (ix2 0 0))) ?_
  unfold extractAt
  refine (shapeCast_apply _ _ _ (ix1 (0 : Fin 1)) ?_).trans ?_
  · rw [Shape.rowMajor_val_one, Shape.rowMajor_val_three]; rfl
  refine (reduce_rows _ _ _ _).trans ?_
  refine Finset.sup_congr rfl fun p _ => ?_
  rw [shapeCast_ab_1ab_apply, rowScores_apply]

/-! ## The blocks, read off the arrays the region is entered with -/

variable (V : (c : Dev nD) → (b : Ref sig .tc) → Buf (Elt Ideal) ((c : Thread nD τ).loc b))

/-- The arrays the region is entered with, each as an array of its own shape. -/
abbrev hsArr (c : Dev nD) : Vec Ideal S800000x64 .f32 := V c main_v0
abbrev htArr (c : Dev nD) : Vec Ideal S800000x64 .f32 := V c main_v1
abbrev wsArr (c : Dev nD) : Vec Ideal S1x64 .f32 := V c main_v4
abbrev wtArr (c : Dev nD) : Vec Ideal S1x64 .f32 := V c main_v5
abbrev wbArr (c : Dev nD) : Vec Ideal S1x1 .f32 := V c main_v7

/-- The blocks the body is given at point `t`, each as an array of its block's shape. -/
abbrev hsBlk (c : Dev nD) (t : Fin cfg0.N) : Vec Ideal S2000x64 .f32 := iblk0 V c 0 t
abbrev htBlk (c : Dev nD) (t : Fin cfg0.N) : Vec Ideal S2000x64 .f32 := iblk0 V c 1 t
abbrev wsBlk (c : Dev nD) (t : Fin cfg0.N) : Vec Ideal S1x64 .f32 := iblk0 V c 2 t
abbrev wtBlk (c : Dev nD) (t : Fin cfg0.N) : Vec Ideal S1x64 .f32 := iblk0 V c 3 t
abbrev wbBlk (c : Dev nD) (t : Fin cfg0.N) : Vec Ideal S1x1 .f32 := iblk0 V c 4 t

/-- The grid has 400 points. -/
theorem lt400 (t : Fin cfg0.N) : t.val < 400 := lt_of_lt_of_eq t.isLt (show cfg0.N = 400 from N_0)

/-- Where each window's block sits at point `t`: the row arrays' block `t`, the small arrays' one block. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)

set_option maxHeartbeats 400000 in
/-- Row `p` of the source rows' block `t` is row `2000 t + p` of the array. -/
theorem hsBlk_apply (c : Dev nD) (t : Fin cfg0.N) (p : Fin 2000) (k : Fin 64) :
    hsBlk V c t (ix2 p k) = hsArr V c (ix2 (rowOf t.val (lt400 t) p) k) := by
  unfold hsBlk hsArr iblk0
  rw [View.read_apply]
  show V c main_v0 _ = V c main_v0 _
  refine congrArg (V c main_v0) (funext fun a => Fin.ext ?_)
  match a with
  | ⟨0, _⟩ => show win0_0.index t 0 * 2000 + 1 * p.val = 2000 * t.val + p.val; rw [(idx_0 t).1]; omega
  | ⟨1, _⟩ => show win0_0.index t 1 * 64 + 1 * k.val = k.val; rw [(idx_0 t).2]; omega

set_option maxHeartbeats 400000 in
/-- Row `p` of the target rows' block `t` is row `2000 t + p` of the array. -/
theorem htBlk_apply (c : Dev nD) (t : Fin cfg0.N) (p : Fin 2000) (k : Fin 64) :
    htBlk V c t (ix2 p k) = htArr V c (ix2 (rowOf t.val (lt400 t) p) k) := by
  unfold htBlk htArr iblk0
  rw [View.read_apply]
  show V c main_v1 _ = V c main_v1 _
  refine congrArg (V c main_v1) (funext fun a => Fin.ext ?_)
  match a with
  | ⟨0, _⟩ => show win0_1.index t 0 * 2000 + 1 * p.val = 2000 * t.val + p.val; rw [(idx_1 t).1]; omega
  | ⟨1, _⟩ => show win0_1.index t 1 * 64 + 1 * k.val = k.val; rw [(idx_1 t).2]; omega

set_option maxHeartbeats 400000 in
/-- The source half of the score weights is one block: the array itself, at every point. -/
theorem wsBlk_eq (c : Dev nD) (t : Fin cfg0.N) : wsBlk V c t = wsArr V c := by
  funext j
  unfold wsBlk wsArr iblk0
  rw [View.read_apply]
  show V c main_v4 _ = V c main_v4 _
  refine congrArg (V c main_v4) (funext fun a => Fin.ext ?_)
  match a with
  | ⟨0, _⟩ => show win0_2.index t 0 * 1 + 1 * (j 0).val = (j 0).val; rw [(idx_2 t).1]; omega
  | ⟨1, _⟩ => show win0_2.index t 1 * 64 + 1 * (j 1).val = (j 1).val; rw [(idx_2 t).2]; omega

set_option maxHeartbeats 400000 in
/-- The target half of the score weights likewise. -/
theorem wtBlk_eq (c : Dev nD) (t : Fin cfg0.N) : wtBlk V c t = wtArr V c := by
  funext j
  unfold wtBlk wtArr iblk0
  rw [View.read_apply]
  show V c main_v5 _ = V c main_v5 _
  refine congrArg (V c main_v5) (funext fun a => Fin.ext ?_)
  match a with
  | ⟨0, _⟩ => show win0_3.index t 0 * 1 + 1 * (j 0).val = (j 0).val; rw [(idx_3 t).1]; omega
  | ⟨1, _⟩ => show win0_3.index t 1 * 64 + 1 * (j 1).val = (j 1).val; rw [(idx_3 t).2]; omega

set_option maxHeartbeats 400000 in
/-- The score bias likewise. -/
theorem wbBlk_eq (c : Dev nD) (t : Fin cfg0.N) : wbBlk V c t = wbArr V c := by
  funext j
  unfold wbBlk wbArr iblk0
  rw [View.read_apply]
  show V c main_v7 _ = V c main_v7 _
  refine congrArg (V c main_v7) (funext fun a => Fin.ext ?_)
  match a with
  | ⟨0, _⟩ => show win0_4.index t 0 * 1 + 1 * (j 0).val = (j 0).val; rw [(idx_4 t).1]; omega
  | ⟨1, _⟩ => show win0_4.index t 1 * 1 + 1 * (j 1).val = (j 1).val; rw [(idx_4 t).2]; omega

/-! ## The running maximum, point by point -/

/-- The score of a row of the whole arrays. -/
abbrev scoreOf (c : Dev nD) : Fin 800000 → EReal :=
  Cert.Spec.score (hsArr V c) (htArr V c) (wsArr V c) (wtArr V c) (wbArr V c)

/-- What the body computes for row `p` of the blocks at point `t` is the score of row `2000 t + p`. -/
theorem blockScore (c : Dev nD) (t : Fin cfg0.N) (p : Fin 2000) :
    (∑ k : Fin 64, hsBlk V c t (ix2 p k) * wsBlk V c t (ix2 0 k))
        + (∑ k : Fin 64, htBlk V c t (ix2 p k) * wtBlk V c t (ix2 0 k)) + wbBlk V c t (ix2 0 0)
      = scoreOf V c (rowOf t.val (lt400 t) p) := by
  unfold scoreOf Cert.Spec.score
  rw [wsBlk_eq, wtBlk_eq, wbBlk_eq]
  simp only [hsBlk_apply, htBlk_apply]

/-- The largest score among the 2000 rows of block `t`. -/
abbrev blockTop (c : Dev nD) (t : Fin cfg0.N) : EReal :=
  (Finset.univ : Finset (Fin 2000)).sup fun p => scoreOf V c (rowOf t.val (lt400 t) p)

set_option maxHeartbeats 400000 in
/-- At the first point the running maximum restarts from negative infinity. -/
theorem outs_A (c : Dev nD) (t : Fin cfg0.N) (h0 : t.val % 400 = 0) :
    outsAt0 V c t.val t.isLt (ix2 0 0) = max ⊥ (blockTop V c t) := by
  rw [outsAt0_A V c t h0]
  refine (congrFun (out_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0)
    (hsBlk V c t) (htBlk V c t) (wsBlk V c t) (wtBlk V c t) (wbBlk V c t)) (ix2 0 0)).trans ?_
  rw [pay2_apply]
  refine congr (congrArg max ?_) (Finset.sup_congr rfl fun p _ => blockScore V c t p)
  show Ideal.ofBits .f32 0xFF800000#32 = ⊥
  exact Cert.Spec.ofBits_neg_inf

set_option maxHeartbeats 400000 in
/-- At every later point it is the running maximum left by the point before against the block's largest score. -/
theorem outs_B (c : Dev nD) (t : Fin cfg0.N) (h0 : ¬t.val % 400 = 0) :
    outsAt0 V c t.val t.isLt (ix2 0 0)
      = max (outsAt0 V c (t.val - 1) (Nat.lt_of_le_of_lt (Nat.sub_le _ _) t.isLt) (ix2 0 0)) (blockTop V c t) := by
  rw [outsAt0_B V c t h0]
  refine (congrFun (out_B (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h))
    (hsBlk V c t) (htBlk V c t) (wsBlk V c t) (wtBlk V c t) (wbBlk V c t)
    (outsAt0 V c (t.val - 1) (Nat.lt_of_le_of_lt (Nat.sub_le _ _) t.isLt))) (ix2 0 0)).trans ?_
  rw [pay2_apply]
  exact congrArg (max _) (Finset.sup_congr rfl fun p _ => blockScore V c t p)

/-- The invariant: after point `n` the output block holds the largest score among the rows of blocks 0 … n. -/
theorem outs_eq (c : Dev nD) : ∀ (n : ℕ) (h : n < cfg0.N), outsAt0 V c n h (ix2 0 0) = below (scoreOf V c) (n + 1)
  | 0, h => by
    refine (outs_A V c ⟨0, h⟩ rfl).trans ?_
    rw [below_succ _ 0 (by omega), below_zero]
  | n + 1, h => by
    have hN : n + 1 < 400 := lt_of_lt_of_eq h (show cfg0.N = 400 from N_0)
    have hB : ¬(⟨n + 1, h⟩ : Fin cfg0.N).val % 400 = 0 := by dsimp only; omega
    refine (outs_B V c ⟨n + 1, h⟩ hB).trans ?_
    rw [below_succ _ (n + 1) hN]
    show max (outsAt0 V c n _ (ix2 0 0)) _ = _
    rw [outs_eq c n]

/-- The output block has one entry, so it is that constant. -/
theorem outs_fun (c : Dev nD) (n : ℕ) (h : n < cfg0.N) :
    outsAt0 V c n h = fun _ => below (scoreOf V c) (n + 1) := by
  funext i
  have hi : i = ix2 0 0 := funext fun a => match a with
    | ⟨0, _⟩ => Fin.ext (by have h : (i 0).val < 1 := (i 0).isLt; show (i 0).val = 0; omega)
    | ⟨1, _⟩ => Fin.ext (by have h : (i 1).val < 1 := (i 1).isLt; show (i 1).val = 0; omega)
  rw [hi]
  exact outs_eq V c n h

/-! ## The output array after the run -/

/-- The largest score over all rows, as the specification names it. -/
theorem top_eq (c : Dev nD) :
    Cert.Spec.top (V c main_v0) (V c main_v1) (V c main_v4) (V c main_v5) (V c main_v7)
      = (Finset.univ : Finset (Fin 800000)).sup (scoreOf V c) := by
  unfold Cert.Spec.top
  rfl

/-- A constant block cut to its moved part is the block of the constant array. -/
theorem const_block (t : Fin cfg0.N) (g : EReal) :
    (cfg0.win 5).cut (grid0.coords t) (fun _ => g) = ((cfg0.win 5).blk t).view.read (Elt Ideal) (fun _ => g) := by
  funext j
  rw [View.read_apply]
  rfl

set_option maxHeartbeats 200000 in
/-- The one write-back, after the last point, writes the largest score over all rows. -/
theorem flushed_eq (c : Dev nD) (t : Fin cfg0.N) (hf : (cfg0.win 5).flush t = true) :
    (dat0 V c).flushed 5 t = ((cfg0.win 5).blk t).view.read (Elt Ideal)
      (fun _ => Cert.Spec.top (V c main_v0) (V c main_v1) (V c main_v4) (V c main_v5) (V c main_v7)) := by
  have h399 : t.val = 399 := by have := (flush0_5 t).mp hf; have := lt400 t; omega
  have e : below (scoreOf V c) (t.val + 1)
      = Cert.Spec.top (V c main_v0) (V c main_v1) (V c main_v4) (V c main_v5) (V c main_v7) := by
    rw [h399, below_all, top_eq]
  show (cfg0.win 5).cut (grid0.coords t) ((dat0 V c).after 5 t) = _
  rw [after0_5, outs_fun V c t.val t.isLt, e]
  exact const_block t _

/-- The last point, the one that writes the output block back. -/
abbrev tLast : Fin cfg0.N := ⟨399, by rw [show cfg0.N = 400 from N_0]; omega⟩

/-- The output's block is the whole one-entry array at every point. -/
theorem xsize_5 : ∀ t : Fin cfg0.N, win0_5.xsize (grid0.coords t) 0 = 1 ∧ win0_5.xsize (grid0.coords t) 1 = 1 :=
  (by decide +kernel : ∀ t : Fin grid0.N, win0_5.xsize (grid0.coords t) 0 = 1 ∧ win0_5.xsize (grid0.coords t) 1 = 1)

/-- What the region leaves in its one-entry output array: the largest score. -/
theorem top_array (c : Dev nD) :
    (dat0 V c).arrAt 5 cfg0.N
      = fun _ => Cert.Spec.top (V c main_v0) (V c main_v1) (V c main_v4) (V c main_v5) (V c main_v7) :=
  (dat0 V c).arrAt_eq_of_cover 5 _ (flushed_eq V c) fun i =>
    ⟨tLast, (flush0_5 tLast).mpr rfl, by
      show i ∈ ((View.whole main_v8).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [(idx_5 tLast).1, (xsize_5 tLast).1]; omega
      | ⟨1, _⟩ =>
        show win0_5.index tLast 1 * win0_5.size 1 ≤ (i 1 : Nat)
          ∧ (i 1 : Nat) < win0_5.index tLast 1 * win0_5.size 1 + win0_5.xsize (grid0.coords tLast) 1
        rw [(idx_5 tLast).2, (xsize_5 tLast).2]; omega⟩

end Cert.KernelIdeal.Region0

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region1.lean ====
/-
  The second pipelined region (the value and weight pass), read as values.

  Each of its 400 grid points takes rows `2000 t … 2000 t + 1999` of the two gathered row arrays, the whole weight
  blocks and the one-entry block holding the largest score, and writes the matching 2000 rows of the numerator array and
  of the weight column. Entry by entry the body's products are sums over the 64 columns, so what the region leaves in
  its two output arrays is the specification's `numerAt` and `denomAt` of the arrays it found, the shift the entry of
  the one-entry block.
-/
import proofs.«431220_j40956808135018_4_alg».proof.Proof.Gen.KernelIdeal.Frame
import proofs.«431220_j40956808135018_4_alg».proof.Proof.Spec
import proofs.«431220_j40956808135018_4_alg».proof.Proof.LibDotPlain
import proofs.«431220_j40956808135018_4_alg».proof.Proof.LibColumn
import Idealize.ShloMosaic.Lib.Pipeline.Value
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic, entry by entry -/

/-- A 2000 × 64 block times the transpose of a 64 × 64 matrix into a zero accumulator, at entry (p, q): row p of the
    block against row q of the matrix, summed over the 64 columns. -/
theorem mm_wide (l : FVec Ideal S2000x64 .f32) (w : FVec Ideal S64x64 .f32) (h : S64x64.Transposes [1, 0] S64x64)
    (p : Fin 2000) (q : Fin 64) :
    matmul dot_S2000x64_S64x64_S2000x64_1_0_0_1_n_n (some .fp32) l (transpose S64x64 [1, 0] w h)
        (constant (F := Ideal) S2000x64 .f32 0x00000000#32) (ix2 p q)
      = ∑ k : Fin 64, l (ix2 p k) * w (ix2 q k) :=
  ((Ideal.matmul_constant_zero_apply (DotDims.plain 2000 64 64) (some .fp32) l _ _).trans
      (Cert.LibDot.sum_plain 2000 64 64 l _ p q)).trans
    (Finset.sum_congr rfl fun k _ => congrArg (l (ix2 p k) * ·) (transpose_ix2_apply w h k q))

/-- A 2000 × 64 block times a 1 × 64 row stood up as a column, into a zero accumulator, at entry (p, 0): row p of the
    block against the row, summed over the 64 columns. -/
theorem mm_col (l : FVec Ideal S2000x64 .f32) (w : FVec Ideal S1x64 .f32) (h : S1x64.Transposes [1, 0] S64x1) (p : Fin 2000) :
    matmul dot_S2000x64_S64x1_S2000x1_1_0_0_1_n_n (some .fp32) l (transpose S64x1 [1, 0] w h)
        (constant (F := Ideal) S2000x1 .f32 0x00000000#32) (ix2 p (0 : Fin 1))
      = ∑ k : Fin 64, l (ix2 p k) * w (ix2 (0 : Fin 1) k) :=
  ((Ideal.matmul_constant_zero_apply (DotDims.plain 2000 64 1) (some .fp32) l _ _).trans
      (Cert.LibDot.sum_plain 2000 64 1 l _ p 0)).trans
    (Finset.sum_congr rfl fun k _ => congrArg (l (ix2 p k) * ·) (transpose_ix2_apply w h k 0))

/-- The rectified value rows of a block: row p of the source block against row q of the first weight half, plus row p
    of the target block against row q of the second half, plus the bias at q, cut off below at 0. -/
theorem value_block (x1 x2 : Vec Ideal S2000x64 .f32) (x3 x4 : Vec Ideal S64x64 .f32) (x5 : Vec Ideal S1x64 .f32) (p : Fin 2000) (q : Fin 64) :
    k1_pay3 x1 x3 x2 x4 x5 (ix2 p q)
      = max ((∑ k : Fin 64, x1 (ix2 p k) * x3 (ix2 q k)) + (∑ k : Fin 64, x2 (ix2 p k) * x4 (ix2 q k)) + x5 (ix2 0 q)) 0 := by
  unfold k1_pay3
  try dsimp only
  simp only [shapeCast_self]
  rw [maximumf_apply, addf_apply, addf_apply, broadcast_apply, mm_wide, mm_wide, broadcastTo_1b_ab_apply]
  show max _ (Ideal.ofBits .f32 0x00000000#32) = _
  rw [Ideal.ofBits_zero_f32]

/-- The score rows of a block before the bias: row p of the source block against the first 64 score weights plus row p
    of the target block against the last 64. -/
theorem score_block (x1 x2 : Vec Ideal S2000x64 .f32) (x6 x7 : Vec Ideal S1x64 .f32) (p : Fin 2000) :
    k1_pay4 x1 x6 x2 x7 (ix2 p (0 : Fin 1))
      = (∑ k : Fin 64, x1 (ix2 p k) * x6 (ix2 0 k)) + (∑ k : Fin 64, x2 (ix2 p k) * x7 (ix2 0 k)) := by
  unfold k1_pay4
  try dsimp only
  simp only [shapeCast_self]
  rw [addf_apply, mm_col, mm_col]

/-- The score-bias block passes through unchanged. -/
theorem bias_block (x8 : Vec Ideal S1x1 .f32) : k1_pay5 x8 = x8 := by
  unfold k1_pay5
  exact shapeCast_self _ _

/-- The weight column of a block: the exponential of the row's score plus the bias minus the shift. -/
theorem weight_block (v31 : FVec Ideal S2000x1 .f32) (v33 : FVec Ideal S1x1 .f32) (v36 : Vec Ideal S1x1 .f32) (p : Fin 2000) :
    k1_pay1 v31 v33 v36 (ix2 p (0 : Fin 1)) = Ideal.exp (v31 (ix2 p 0) + v33 (ix2 0 0) - v36 (ix2 0 0)) := by
  unfold k1_pay1
  try dsimp only
  simp only [shapeCast_self]
  show Ideal.exp (v31 (ix2 p 0) + broadcastTo S2000x1 v33 _ (ix2 p (0 : Fin 1)) - broadcastTo S2000x1 v36 _ (ix2 p (0 : Fin 1))) = _
  rw [broadcastTo_1b_ab_apply, broadcastTo_1b_ab_apply]

/-- The numerator block: the value at (p, q) times the weight of row p. -/
theorem numer_block (v18 : FVec Ideal S2000x64 .f32) (v31 : FVec Ideal S2000x1 .f32) (v33 : FVec Ideal S1x1 .f32) (v36 : Vec Ideal S1x1 .f32)
    (p : Fin 2000) (q : Fin 64) :
    k1_pay2 v18 v31 v33 v36 (ix2 p q) = v18 (ix2 p q) * k1_pay1 v31 v33 v36 (ix2 p (0 : Fin 1)) := by
  unfold k1_pay2
  try dsimp only
  rw [mulf_apply, Cert.LibColumn.broadcastTo_a1_ab_apply]

/-! ## The blocks a point reads, as parts of the arrays the region finds -/

/-- The index maps, decided once over the 400 points: the one-entry and the weight windows sit at block (0, 0) at every
    point; the two row windows and the two output windows sit at block (t, 0) at point t. -/
theorem idx_const : ∀ t : Fin cfg1.N,
    (win1_0.index t (0 : Fin 2) = 0 ∧ win1_0.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem idx_rows : ∀ t : Fin cfg1.N,
    (win1_1.index t (0 : Fin 2) = t.val ∧ win1_1.index t (1 : Fin 2) = 0)
    ∧ (win1_2.index t (0 : Fin 2) = t.val ∧ win1_2.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

theorem lt_400 (t : Fin cfg1.N) : t.val < 400 := by
  have h := t.isLt
  have hN : cfg1.N = 400 := N_1
  omega

/-- Row p of the block of point t is row 2000 t + p of the array. -/
def row (t : Fin cfg1.N) (p : Fin 2000) : Fin 800000 := ⟨2000 * t.val + p.val, by have := lt_400 t; have := p.isLt; omega⟩

/-- Rows 2000 t … 2000 t + 1999 of a row array: the block of point t. -/
abbrev rowsOf (A : Vec Ideal S800000x64 .f32) (t : Fin cfg1.N) : Vec Ideal S2000x64 .f32 :=
  fun y => A (ix2 (row t (y 0)) (y 1))

/-- The one-entry block holding the shift is the whole one-entry array, at every point. -/
theorem blk0 (c : Dev nD) (t : Fin cfg1.N) : iblk1 V c 0 t = (V c main_v8 : Vec Ideal S1x1 .f32) := by
  obtain ⟨⟨e0, e1⟩, -⟩ := idx_const t
  funext y
  show V c main_v8 (((cfg1.win 0).blk t).view.emb y) = V c main_v8 y
  congr 1
  funext a
  apply Fin.ext
  match a with
  | ⟨0, _⟩ => show win1_0.index t (0 : Fin 2) * 1 + 1 * (y 0).val = (y 0).val; rw [e0]; omega
  | ⟨1, _⟩ => show win1_0.index t (1 : Fin 2) * 1 + 1 * (y 1).val = (y 1).val; rw [e1]; omega

/-- The source rows' block of point t is rows 2000 t … of the source row array. -/
theorem blk1 (c : Dev nD) (t : Fin cfg1.N) : iblk1 V c 1 t = rowsOf (V c main_v0) t := by
  obtain ⟨⟨e0, e1⟩, -⟩ := idx_rows t
  funext y
  show V c main_v0 (((cfg1.win 1).blk t).view.emb y) = V c main_v0 (ix2 (row t (y 0)) (y 1))
  congr 1
  funext a
  apply Fin.ext
  match a with
  | ⟨0, _⟩ => show win1_1.index t (0 : Fin 2) * 2000 + 1 * (y 0).val = 2000 * t.val + (y 0).val; rw [e0]; omega
  | ⟨1, _⟩ => show win1_1.index t (1 : Fin 2) * 64 + 1 * (y 1).val = (y 1).val; rw [e1]; omega

/-- The target rows' block of point t is rows 2000 t … of the target row array. -/
theorem blk2 (c : Dev nD) (t : Fin cfg1.N) : iblk1 V c 2 t = rowsOf (V c main_v1) t := by
  obtain ⟨-, ⟨e0, e1⟩, -⟩ := idx_rows t
  funext y
  show V c main_v1 (((cfg1.win 2).blk t).view.emb y) = V c main_v1 (ix2 (row t (y 0)) (y 1))
  congr 1
  funext a
  apply Fin.ext
  match a with
  | ⟨0, _⟩ => show win1_2.index t (0 : Fin 2) * 2000 + 1 * (y 0).val = 2000 * t.val + (y 0).val; rw [e0]; omega
  | ⟨1, _⟩ => show win1_2.index t (1 : Fin 2) * 64 + 1 * (y 1).val = (y 1).val; rw [e1]; omega

/-- The first value-weight half is read whole at every point. -/
theorem blk3 (c : Dev nD) (t : Fin cfg1.N) : iblk1 V c 3 t = (V c main_v2 : Vec Ideal S64x64 .f32) := by
  obtain ⟨-, ⟨e0, e1⟩, -⟩ := idx_const t
  funext y
  show V c main_v2 (((cfg1.win 3).blk t).view.emb y) = V c main_v2 y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The second value-weight half is read whole at every point. -/
theorem blk4 (c : Dev nD) (t : Fin cfg1.N) : iblk1 V c 4 t = (V c main_v3 : Vec Ideal S64x64 .f32) := by
  obtain ⟨-, -, ⟨e0, e1⟩, -⟩ := idx_const t
  funext y
  show V c main_v3 (((cfg1.win 4).blk t).view.emb y) = V c main_v3 y
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The value bias is read whole at every point. -/
theorem blk5 (c : Dev nD) (t : Fin cfg1.N) : iblk1 V c 5 t = (V c main_v6 : Vec Ideal S1x64 .f32) := by
  obtain ⟨-, -, -, ⟨e0, e1⟩, -⟩ := idx_const t
  funext y
  show V c main_v6 (((cfg1.win 5).blk t).view.emb y) = V c main_v6 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- The first score-weight half is read whole at every point. -/
theorem blk6 (c : Dev nD) (t : Fin cfg1.N) : iblk1 V c 6 t = (V c main_v4 : Vec Ideal S1x64 .f32) := by
  obtain ⟨-, -, -, -, ⟨e0, e1⟩, -⟩ := idx_const t
  funext y
  show V c main_v4 (((cfg1.win 6).blk t).view.emb y) = V c main_v4 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- The second score-weight half is read whole at every point. -/
theorem blk7 (c : Dev nD) (t : Fin cfg1.N) : iblk1 V c 7 t = (V c main_v5 : Vec Ideal S1x64 .f32) := by
  obtain ⟨-, -, -, -, -, ⟨e0, e1⟩, -⟩ := idx_const t
  funext y
  show V c main_v5 (((cfg1.win 7).blk t).view.emb y) = V c main_v5 y
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- The score bias is read whole at every point. -/
theorem blk8 (c : Dev nD) (t : Fin cfg1.N) : iblk1 V c 8 t = (V c main_v7 : Vec Ideal S1x1 .f32) := by
  obtain ⟨-, -, -, -, -, -, e0, e1⟩ := idx_const t
  funext y
  show V c main_v7 (((cfg1.win 8).blk t).view.emb y) = V c main_v7 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 1 + 1 * (y 1).val = (y 1).val; rw [e1]; omega

/-! ## What the body leaves in the two output blocks, entry by entry -/

/-- Entry (p, q) of the numerator block the body stores: the rectified value of row p at feature q times the
    exponential of row p's score minus the shift, all from the blocks the body loads. -/
theorem numer_entry (x0 : Vec Ideal S1x1 .f32) (x1 x2 : Vec Ideal S2000x64 .f32) (x3 x4 : Vec Ideal S64x64 .f32)
    (x5 x6 x7 : Vec Ideal S1x64 .f32) (x8 : Vec Ideal S1x1 .f32) (p : Fin 2000) (q : Fin 64) :
    out1_9 x0 x1 x2 x3 x4 x5 x6 x7 x8 (ix2 p q)
      = max ((∑ k : Fin 64, x1 (ix2 p k) * x3 (ix2 q k)) + (∑ k : Fin 64, x2 (ix2 p k) * x4 (ix2 q k)) + x5 (ix2 0 q)) 0
        * Ideal.exp ((∑ k : Fin 64, x1 (ix2 p k) * x6 (ix2 0 k)) + (∑ k : Fin 64, x2 (ix2 p k) * x7 (ix2 0 k)) + x8 (ix2 0 0)
            - x0 (ix2 0 0)) := by
  unfold out1_9
  rw [View.canon_unit_zero hz]
  simp only [View.ld_unit_zero (S := S2000x64) hz, View.ld_unit_zero (S := S64x64) hz, View.ld_unit_zero (S := S1x64) hz,
    View.ld_unit_zero (S := S1x1) hz]
  rw [numer_block, weight_block, value_block, score_block, bias_block]

/-- Entry (p, 0) of the weight column the body stores: the exponential of row p's score minus the shift. -/
theorem weight_entry (x0 : Vec Ideal S1x1 .f32) (x1 x2 : Vec Ideal S2000x64 .f32) (x3 x4 : Vec Ideal S64x64 .f32)
    (x5 x6 x7 : Vec Ideal S1x64 .f32) (x8 : Vec Ideal S1x1 .f32) (p : Fin 2000) :
    out1_10 x0 x1 x2 x3 x4 x5 x6 x7 x8 (ix2 p (0 : Fin 1))
      = Ideal.exp ((∑ k : Fin 64, x1 (ix2 p k) * x6 (ix2 0 k)) + (∑ k : Fin 64, x2 (ix2 p k) * x7 (ix2 0 k)) + x8 (ix2 0 0)
            - x0 (ix2 0 0)) := by
  unfold out1_10
  rw [View.canon_unit_zero hz]
  simp only [View.ld_unit_zero (S := S2000x64) hz, View.ld_unit_zero (S := S1x64) hz, View.ld_unit_zero (S := S1x1) hz]
  rw [weight_block, score_block, bias_block]

/-- With the row blocks taken from rows 2000 t … of the two row arrays, entry (p, q) of the stored numerator block is
    the specification's numerator at row 2000 t + p, feature q, the shift the entry of the one-entry block. -/
theorem numer_point (g : Vec Ideal S1x1 .f32) (hs ht : Vec Ideal S800000x64 .f32) (fs ft : Vec Ideal S64x64 .f32)
    (fb ws wt : Vec Ideal S1x64 .f32) (wb : Vec Ideal S1x1 .f32) (t : Fin cfg1.N) (p : Fin 2000) (q : Fin 64) :
    out1_9 g (rowsOf hs t) (rowsOf ht t) fs ft fb ws wt wb (ix2 p q)
      = Cert.Spec.numerAt hs ht fs ft fb ws wt wb (g (ix2 0 0)) (ix2 (row t p) q) :=
  (numer_entry g (rowsOf hs t) (rowsOf ht t) fs ft fb ws wt wb p q).trans rfl

/-- Likewise entry (p, 0) of the stored weight column is the specification's weight at row 2000 t + p. -/
theorem denom_point (g : Vec Ideal S1x1 .f32) (hs ht : Vec Ideal S800000x64 .f32) (fs ft : Vec Ideal S64x64 .f32)
    (fb ws wt : Vec Ideal S1x64 .f32) (wb : Vec Ideal S1x1 .f32) (t : Fin cfg1.N) (p : Fin 2000) :
    out1_10 g (rowsOf hs t) (rowsOf ht t) fs ft fb ws wt wb (ix2 p (0 : Fin 1))
      = Cert.Spec.denomAt hs ht ws wt wb (g (ix2 0 0)) (ix2 (row t p) (0 : Fin 1)) :=
  (weight_entry g (rowsOf hs t) (rowsOf ht t) fs ft fb ws wt wb p).trans rfl

/-! ## From the blocks to the arrays -/

/-- Entry (p, q) of the numerator block of point t sits at row 2000 t + p, column q of the numerator array. -/
theorem numer_emb (t : Fin cfg1.N) (p : Fin 2000) (q : Fin 64) :
    ((cfg1.win 9).blk t).view.emb (ix2 p q) = (ix2 (row t p) q : S800000x64.Idx) := by
  obtain ⟨-, -, ⟨e0, e1⟩, -⟩ := idx_rows t
  funext a
  apply Fin.ext
  match a with
  | ⟨0, _⟩ => show win1_9.index t (0 : Fin 2) * 2000 + 1 * p.val = 2000 * t.val + p.val; rw [e0]; omega
  | ⟨1, _⟩ => show win1_9.index t (1 : Fin 2) * 64 + 1 * q.val = q.val; rw [e1]; omega

/-- Entry (p, 0) of the weight block of point t sits at row 2000 t + p of the weight column. -/
theorem denom_emb (t : Fin cfg1.N) (p : Fin 2000) (u : Fin 1) :
    ((cfg1.win 10).blk t).view.emb (ix2 p u) = (ix2 (row t p) u : S800000x1.Idx) := by
  obtain ⟨-, -, -, e0, e1⟩ := idx_rows t
  funext a
  apply Fin.ext
  match a with
  | ⟨0, _⟩ => show win1_10.index t (0 : Fin 2) * 2000 + 1 * p.val = 2000 * t.val + p.val; rw [e0]; omega
  | ⟨1, _⟩ => show win1_10.index t (1 : Fin 2) * 1 + 1 * u.val = u.val; rw [e1]; omega

/-- What point t writes back to the numerator array is block t of the specification's numerator of the arrays the
    region finds. -/
theorem flushed_numer (c : Dev nD) (t : Fin cfg1.N) :
    (dat1 V c).flushed 9 t
      = ((cfg1.win 9).blk t).view.read (Elt Ideal)
          (Cert.Spec.numerAt (V c main_v0) (V c main_v1) (V c main_v2) (V c main_v3) (V c main_v6) (V c main_v4) (V c main_v5)
            (V c main_v7) (V c main_v8 (ix2 0 0))) := by
  show (cfg1.win 9).cut (grid1.coords t) ((dat1 V c).after 9 t) = _
  rw [after1_9, blk0 V c t, blk1 V c t, blk2 V c t, blk3 V c t, blk4 V c t, blk5 V c t, blk6 V c t, blk7 V c t, blk8 V c t]
  refine funext fun (j : S2000x64.Idx) => ?_
  obtain ⟨p, q, rfl⟩ : ∃ (p : Fin 2000) (q : Fin 64), j = ix2 p q := ⟨j 0, j 1, eq_ix2 j⟩
  show out1_9 (V c main_v8) (rowsOf (V c main_v0) t) (rowsOf (V c main_v1) t) (V c main_v2) (V c main_v3) (V c main_v6)
      (V c main_v4) (V c main_v5) (V c main_v7) (ix2 p q)
    = Cert.Spec.numerAt (V c main_v0) (V c main_v1) (V c main_v2) (V c main_v3) (V c main_v6) (V c main_v4) (V c main_v5)
        (V c main_v7) (V c main_v8 (ix2 0 0)) (((cfg1.win 9).blk t).view.emb (ix2 p q))
  exact (numer_point (V c main_v8) (V c main_v0) (V c main_v1) (V c main_v2) (V c main_v3) (V c main_v6) (V c main_v4)
    (V c main_v5) (V c main_v7) t p q).trans (congrArg _ (numer_emb t p q).symm)

/-- What point t writes back to the weight column is block t of the specification's weight column of the arrays the
    region finds. -/
theorem flushed_denom (c : Dev nD) (t : Fin cfg1.N) :
    (dat1 V c).flushed 10 t
      = ((cfg1.win 10).blk t).view.read (Elt Ideal)
          (Cert.Spec.denomAt (V c main_v0) (V c main_v1) (V c main_v4) (V c main_v5) (V c main_v7) (V c main_v8 (ix2 0 0))) := by
  show (cfg1.win 10).cut (grid1.coords t) ((dat1 V c).after 10 t) = _
  rw [after1_10, blk0 V c t, blk1 V c t, blk2 V c t, blk3 V c t, blk4 V c t, blk5 V c t, blk6 V c t, blk7 V c t, blk8 V c t]
  refine funext fun (j : S2000x1.Idx) => ?_
  obtain ⟨p, u, rfl⟩ : ∃ (p : Fin 2000) (u : Fin 1), j = ix2 p u := ⟨j 0, j 1, eq_ix2 j⟩
  obtain rfl : u = 0 := Subsingleton.elim u 0
  show out1_10 (V c main_v8) (rowsOf (V c main_v0) t) (rowsOf (V c main_v1) t) (V c main_v2) (V c main_v3) (V c main_v6)
      (V c main_v4) (V c main_v5) (V c main_v7) (ix2 p (0 : Fin 1))
    = Cert.Spec.denomAt (V c main_v0) (V c main_v1) (V c main_v4) (V c main_v5) (V c main_v7) (V c main_v8 (ix2 0 0))
        (((cfg1.win 10).blk t).view.emb (ix2 p (0 : Fin 1)))
  exact (denom_point (V c main_v8) (V c main_v0) (V c main_v1) (V c main_v2) (V c main_v3) (V c main_v6) (V c main_v4)
    (V c main_v5) (V c main_v7) t p).trans (congrArg _ (denom_emb t p 0).symm)

/-- Row r of the numerator array lies in the block of point r / 2000, which is written back. -/
theorem cover_numer (i : S800000x64.Idx) :
    ∃ t : Fin cfg1.N, (cfg1.win 9).flush t = true ∧ i ∈ ((cfg1.win 9).blk t).view.set := by
  have hi0 : (i 0).val < 800000 := (i 0).isLt
  have hi1 : (i 1).val < 64 := (i 1).isLt
  have hN : cfg1.N = 400 := N_1
  obtain ⟨t, ht⟩ : ∃ t : Fin cfg1.N, t.val = (i 0).val / 2000 := ⟨⟨(i 0).val / 2000, by omega⟩, rfl⟩
  obtain ⟨-, -, ⟨e0, e1⟩, -⟩ := idx_rows t
  refine ⟨t, flush1_9 t, ?_⟩
  show i ∈ ((View.whole main_v9_0).slice (win1_9.rect t)).set
  rw [View.set_slice_whole, Rect.mem_set_unit]
  intro a
  match a with
  | ⟨0, _⟩ =>
    show win1_9.index t (0 : Fin 2) * 2000 ≤ (i 0).val ∧ (i 0).val < win1_9.index t (0 : Fin 2) * 2000 + 2000
    rw [e0]; omega
  | ⟨1, _⟩ =>
    show win1_9.index t (1 : Fin 2) * 64 ≤ (i 1).val ∧ (i 1).val < win1_9.index t (1 : Fin 2) * 64 + 64
    rw [e1]; omega

/-- Row r of the weight column lies in the block of point r / 2000, which is written back. -/
theorem cover_denom (i : S800000x1.Idx) :
    ∃ t : Fin cfg1.N, (cfg1.win 10).flush t = true ∧ i ∈ ((cfg1.win 10).blk t).view.set := by
  have hi0 : (i 0).val < 800000 := (i 0).isLt
  have hi1 : (i 1).val < 1 := (i 1).isLt
  have hN : cfg1.N = 400 := N_1
  obtain ⟨t, ht⟩ : ∃ t : Fin cfg1.N, t.val = (i 0).val / 2000 := ⟨⟨(i 0).val / 2000, by omega⟩, rfl⟩
  obtain ⟨-, -, -, e0, e1⟩ := idx_rows t
  refine ⟨t, flush1_10 t, ?_⟩
  show i ∈ ((View.whole main_v9_1).slice (win1_10.rect t)).set
  rw [View.set_slice_whole, Rect.mem_set_unit]
  intro a
  match a with
  | ⟨0, _⟩ =>
    show win1_10.index t (0 : Fin 2) * 2000 ≤ (i 0).val ∧ (i 0).val < win1_10.index t (0 : Fin 2) * 2000 + 2000
    rw [e0]; omega
  | ⟨1, _⟩ =>
    show win1_10.index t (1 : Fin 2) * 1 ≤ (i 1).val ∧ (i 1).val < win1_10.index t (1 : Fin 2) * 1 + 1
    rw [e1]; omega

/-- What the region leaves in the numerator array. -/
theorem numer_array (c : Dev nD) :
    (dat1 V c).arrAt 9 cfg1.N
      = Cert.Spec.numerAt (V c main_v0) (V c main_v1) (V c main_v2) (V c main_v3) (V c main_v6) (V c main_v4) (V c main_v5)
          (V c main_v7) (V c main_v8 (ix2 0 0)) :=
  (dat1 V c).arrAt_eq_of_cover 9
    (Cert.Spec.numerAt (V c main_v0) (V c main_v1) (V c main_v2) (V c main_v3) (V c main_v6) (V c main_v4) (V c main_v5)
      (V c main_v7) (V c main_v8 (ix2 0 0)))
    (fun t _ => flushed_numer V c t) cover_numer

/-- What the region leaves in the weight column. -/
theorem denom_array (c : Dev nD) :
    (dat1 V c).arrAt 10 cfg1.N
      = Cert.Spec.denomAt (V c main_v0) (V c main_v1) (V c main_v4) (V c main_v5) (V c main_v7) (V c main_v8 (ix2 0 0)) :=
  (dat1 V c).arrAt_eq_of_cover 10
    (Cert.Spec.denomAt (V c main_v0) (V c main_v1) (V c main_v4) (V c main_v5) (V c main_v7) (V c main_v8 (ix2 0 0)))
    (fun t _ => flushed_denom V c t) cover_denom

end Cert.KernelIdeal.Region1

end
-- ==== Proof.Take.lean ====
/-
  The kernel's row lookup `take x idx` against the plain gather `rows x idx`.

  Both first wrap a negative index by adding the table's 50000 rows. The kernel's lookup then tests `0 ≤ i ≤ 49999` on the
  wrapped index and, where the test fails, replaces the gathered row by a fill pattern; the plain gather has no such
  test. For indices already in `[0, 50000)` the wrap leaves them alone and the test passes at every edge, so the two
  are the same array: `take_eq_rows`. That every index IS in that range is what the precondition's two integer
  conjuncts say, one per index array: `src_in_range`, `tgt_in_range`.
-/
import proofs.«431220_j40956808135018_4_alg».proof.Defs
import proofs.«431220_j40956808135018_4_alg».proof.Proof.Gen.KernelIdeal
import proofs.«431220_j40956808135018_4_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Idealize.ShloMosaic Idealize.ShloMosaic.ValueIdx Idealize.SL.Sem Cert.KernelIdeal
open Cert.KernelIdeal.Facts₀ Cert.KernelIdeal.Facts

variable {F : FTy → Type} [FloatOps F]

/-- The index array with negative entries wrapped (50000 added), as the [800000, 1] column of start indices. -/
def wrapped (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The plain gather of the table's rows at the wrapped indices. -/
def rows (x : FVec F S50000x64 .f32) (idx : IVec S800000 32) : FVec F S800000x64 .f32 :=
  Host.gather gather_S50000x64_S800000x1_S800000x64_1_0_n_n_0_1_164 x (wrapped idx)

/-- The kernel's test `0 ≤ i ≤ 49999` on the wrapped index, laid along the 64 columns. -/
def inRange (idx : IVec S800000 32) : IVec S800000x64 1 :=
  broadcastInDim S800000x64 ![0] bcast_S800000_S800000x64_0
    (Host.reduce IntOp.andi
      (andi (cmpi .sge (wrapped idx) (broadcastInDim S800000x1 ![] bcast_S_S800000x1 (constantI S_ 32 0#32)))
        (cmpi .sle (wrapped idx)
          (broadcastInDim S800000x1 ![0, 1] bcast_S1x1_S800000x1_0_1
            (broadcastInDim S1x1 ![1] bcast_S1_S1x1_1 (constantI S1 32 49999#32)))))
      (constantI S_ 1 1#1) reducesTo_S800000x1_S800000_d1 h_S_)

/-- The kernel's lookup: the gathered row where the test passes, the fill pattern elsewhere. -/
def take (x : FVec F S50000x64 .f32) (idx : IVec S800000 32) : FVec F S800000x64 .f32 :=
  select (inRange idx) (rows x idx) (broadcastInDim S800000x64 ![] bcast_S_S800000x64 (constant S_ .f32 0x7FC00000#32))

/-- Every entry of an index array lies in `[0, 50000)`, read as a signed word. -/
def InRange (idx : IVec S800000 32) : Prop := ∀ e : Fin 800000, 0 ≤ (idx (ix1 e)).toInt ∧ (idx (ix1 e)).toInt < 50000

/-! ## Words: the three compares on a word already in `[0, 50000)` -/

theorem toInt_zero32 : (0#32 : BitVec 32).toInt = 0 := by decide
theorem toInt_50000 : (50000#32 : BitVec 32).toInt = 50000 := by decide
theorem toInt_49999 : (49999#32 : BitVec 32).toInt = 49999 := by decide

/-- A word in `[0, 50000)` is not negative: the wrap's test fails. -/
theorem slt_zero_of_range {a : BitVec 32} (h0 : 0 ≤ a.toInt) : IntOp.cmpi .slt a 0#32 = 0#1 :=
  eq_zero_of_ne_one fun h => by
    have := IntOp.cmpi_slt.1 h
    rw [toInt_zero32] at this
    omega

/-- A word in `[0, 50000)` passes the lower test. -/
theorem sge_zero_of_range {a : BitVec 32} (h0 : 0 ≤ a.toInt) : IntOp.cmpi .sge a 0#32 = 1#1 :=
  IntOp.cmpi_sge.2 (by rw [toInt_zero32]; exact h0)

/-- A word in `[0, 50000)` passes the upper test `≤ 49999`. -/
theorem sle_top_of_range {a : BitVec 32} (h1 : a.toInt < 50000) : IntOp.cmpi .sle a 49999#32 = 1#1 :=
  IntOp.cmpi_sle.2 (by rw [toInt_49999]; omega)

/-- The precondition's two tests on a word, read back as its signed range. -/
theorem range_of_tests {a : BitVec 32} (h0 : IntOp.cmpi .sge a 0#32 = 1#1) (h1 : IntOp.cmpi .slt a 50000#32 = 1#1) :
    0 ≤ a.toInt ∧ a.toInt < 50000 := by
  have g0 := IntOp.cmpi_sge.1 h0
  have g1 := IntOp.cmpi_slt.1 h1
  rw [toInt_zero32] at g0
  rw [toInt_50000] at g1
  exact ⟨g0, g1⟩

/-! ## An and-reduction of an all-ones mask from 1 is 1 -/

/-- A left fold by `and` from 1 over ones stays 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduce by `and` of a mask that is 1 everywhere, started at 1, is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hall : ∀ i, x i = 1#1) (j : t.Idx) :
    Host.reduce IntOp.andi x init h hu j = 1#1 := by
  rw [Host.reduce_eq_foldl, hinit]
  exact foldl_andi_one x _ fun n _ => hall n

/-! ## The wrap leaves an in-range index alone; the test then passes -/

/-- On in-range indices the wrapped column reads, at row `e`, the index itself. -/
theorem wrapped_apply (idx : IVec S800000 32) (h : InRange idx) (i : S800000x1.Idx) : wrapped idx i = idx (ix1 (i 0)) := by
  unfold wrapped
  refine (broadcastInDim_apply _ _ _ i (ix1 (i 0)) (fun a => ?_)).trans ?_
  · match a with
    | ⟨0, _⟩ => rfl
  · show Scalar.select (IntOp.cmpi .slt (idx (ix1 (i 0))) 0#32) (IntOp.addi (idx (ix1 (i 0))) 50000#32) (idx (ix1 (i 0)))
        = idx (ix1 (i 0))
    rw [slt_zero_of_range (h (i 0)).1]
    exact select_zero _ _

/-- On in-range indices the range test is 1 at every edge and column. -/
theorem inRange_eq_one (idx : IVec S800000 32) (h : InRange idx) (i : S800000x64.Idx) : inRange idx i = 1#1 := by
  unfold inRange
  refine (broadcastInDim_apply _ _ _ i (ix1 (i 0)) (fun a => ?_)).trans ?_
  · match a with
    | ⟨0, _⟩ => rfl
  · refine reduce_andi_of_all _ _ _ _ rfl (fun k => ?_) _
    show IntOp.andi (IntOp.cmpi .sge (wrapped idx k) 0#32) (IntOp.cmpi .sle (wrapped idx k) 49999#32) = 1#1
    rw [wrapped_apply idx h k]
    exact IntOp.andi_eq_one.2 ⟨sge_zero_of_range (h (k 0)).1, sle_top_of_range (h (k 0)).2⟩

/-- On in-range indices the test passes everywhere and the lookup is the plain gather. -/
theorem take_eq_rows (x : FVec F S50000x64 .f32) (idx : IVec S800000 32) (h : InRange idx) : take x idx = rows x idx := by
  funext i
  unfold take
  rw [select_apply, inRange_eq_one idx h i]
  exact select_one _ _

/-! ## The precondition's two integer conjuncts, read back -/

/-- One integer conjunct of the precondition: the and-reduce over all entries of the two tests `0 ≤ a` and `a < 50000`
    is 1, so each entry passes both. -/
theorem inRange_of_conjunct (a : IVec S800000 32) (hb : S_.BroadcastsInDim S800000 (![] : Fin 0 → Fin S800000.rank))
    (hr : S800000.ReducesTo [0] S_) (hu : 0 < S_.numel)
    (h : Host.reduce IntOp.andi
        (andi (cmpi .sge a (broadcastInDim S800000 ![] hb (constantI S_ 32 0#32)))
          (cmpi .slt a (broadcastInDim S800000 ![] hb (constantI S_ 32 50000#32))))
        (constantI S_ 1 1#1) hr hu ix0 = 1#1) : InRange a := by
  intro e
  have he := Host.reduce_andi_eq_one _ _ hr hu ix0 h (ix1 e) (funext fun d => d.elim0)
  obtain ⟨h0, h1⟩ := IntOp.andi_eq_one.1 he
  exact range_of_tests h0 h1

/-- The precondition is a left-nested conjunction whose last two conjuncts are the source and target index ranges. -/
theorem ranges_of_pre (a0 : FVec F Cert.Pre_finite_inputs.S50000x64 .f32) (a1 a2 : IVec Cert.Pre_finite_inputs.S800000 32)
    (a3 : FVec F Cert.Pre_finite_inputs.S64x128 .f32) (a4 : FVec F Cert.Pre_finite_inputs.S64 .f32)
    (a5 : FVec F Cert.Pre_finite_inputs.S1x128 .f32) (a6 : FVec F Cert.Pre_finite_inputs.S1 .f32)
    (h : Cert.Pre_finite_inputs.fn (F := F) a0 a1 a2 a3 a4 a5 a6 = fun _ => 1#1) : InRange a1 ∧ InRange a2 := by
  have h := congrFun h ix0
  dsimp only [Cert.Pre_finite_inputs.fn, Cert.Pre_finite_inputs.fn_part1, Cert.Pre_finite_inputs.fn_part2] at h
  obtain ⟨h30, h36⟩ := IntOp.andi_eq_one.1 h
  obtain ⟨_, h29⟩ := IntOp.andi_eq_one.1 h30
  exact ⟨inRange_of_conjunct a1 _ _ _ h29, inRange_of_conjunct a2 _ _ _ h36⟩

/-- The precondition puts the source indices in range. -/
theorem src_in_range (m : (ℓ : Loc nD τ sig) → Buf (Elt Ideal) ℓ) (hpre : Cert.Pre_KernelIdeal m) (c : Dev nD) :
    InRange (m ((c.tc : Thread nD τ).loc main_arg1)) :=
  (ranges_of_pre (F := Ideal) _ _ _ _ _ _ _ (hpre c)).1

/-- The precondition puts the target indices in range. -/
theorem tgt_in_range (m : (ℓ : Loc nD τ sig) → Buf (Elt Ideal) ℓ) (hpre : Cert.Pre_KernelIdeal m) (c : Dev nD) :
    InRange (m ((c.tc : Thread nD τ).loc main_arg2)) :=
  (ranges_of_pre (F := Ideal) _ _ _ _ _ _ _ (hpre c)).2

end Cert.KernelIdeal.Take

end
-- ==== Proof.KernelValue.lean ====
/-
  The idealized kernel's result as one function of its arguments.

  The result buffer is written by the closing host operations: the numerator array is summed onto the target nodes' rows,
  the weight column onto their normalisers, a small constant is added to the normalisers, and the rows are divided by them
  (`closing`). The two summed arrays are what the second pipelined region leaves (the specification's `numerAt` and
  `denomAt` of the arrays it finds: Region1), its shift the one entry the first region leaves (the largest score:
  Region0). The arrays both regions find are the launch's: the two looked-up row arrays — the plain gathers, because the
  precondition keeps every index inside the table (Take) —, the halves of the two weight arrays (unit-stride slices
  are `loHalf` / `hiHalf`) and the two biases as rows (a cast of `n` entries to `[1, n]` is `asRow`).
-/
import proofs.«431220_j40956808135018_4_alg».proof.Proof.KernelRun
import proofs.«431220_j40956808135018_4_alg».proof.Proof.Region0
import proofs.«431220_j40956808135018_4_alg».proof.Proof.Region1
import proofs.«431220_j40956808135018_4_alg».proof.Proof.Take
import proofs.«431220_j40956808135018_4_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Result

open Idealize.ShloMosaic Idealize.ShloMosaic.TcCoe Idealize.ShloMosaic.Tactic Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The closing host operations as one function of the two arrays that are summed onto the nodes and of the target
    indices: rows summed by target, divided by the normalisers (summed likewise, plus the small constant). -/
def closing (num : FVec Ideal S800000x64 .f32) (den : FVec Ideal S800000x1 .f32) (tgt : IVec S800000 32) :
    FVec Ideal S50000x64 .f32 :=
  Host.divf
    (Host.scatterAdd scatter_S50000x64_S800000x1_S800000x64_1_0_0_1
      (broadcastInDim S50000x64 ![] Gen.bcast_S_S50000x64 (constant (F := Ideal) S_ .f32 0x00000000#32))
      (broadcastInDim S800000x1 ![0] Gen.bcast_S800000_S800000x1_0 tgt) num)
    (broadcastInDim S50000x64 ![0, 1] Gen.bcast_S50000x1_S50000x64_0_1
      (addf
        (Host.scatterAdd scatter_S50000x1_S800000x1_S800000x1_1_0_0_1
          (broadcastInDim S50000x1 ![] Gen.bcast_S_S50000x1 (constant (F := Ideal) S_ .f32 0x00000000#32))
          (broadcastInDim S800000x1 ![0] Gen.bcast_S800000_S800000x1_0 tgt) den)
        (broadcastInDim S50000x1 ![] Gen.bcast_S_S50000x1 (constant (F := Ideal) S_ .f32 0x358637BD#32))))

/-! ## The last boundary: the closing operations over the second region's two arrays -/

theorem result_closing (c : Dev nD) :
    W6 m ρ c (Proc.devRef .tc main_v19)
      = closing (W5 m ρ c (Proc.devRef .tc main_v9_0)) (W5 m ρ c (Proc.devRef .tc main_v9_1))
          (W5 m ρ c (Proc.devRef .tc main_arg2)) := by
  show StableHlo.after hostOps2 (W5 m ρ c) (Proc.devRef .tc main_v19) = _
  after_results
  rfl

/-! ## What the first three stretches of host operations leave

The two lookups are written by an outlined function over typed references: each intermediate value is carried to its
buffer's own type and back. The two carriages cancel (`carried_back`); at the three argument arrays and at the result
array a single carriage is left, which is the identity because the buffer's type is the value's. -/

/-- Contents carried to a reference's own type and back are the contents. -/
theorem carried_back {sg : RefSig} {T : BufTy} {Val : EltTy → Type} (x : TRef sg T) (v : T.Contents Val) :
    x.ofBuf (x.toBuf v) = v := by
  obtain ⟨r, h, h2, h3⟩ := x
  subst h
  rfl

theorem table_leaf (c : Dev nD) (h1 h2 h3) :
    (TRef.of main_arg0 h1 h2 h3 : TRef sig ⟨S50000x64, .f32⟩).ofBuf (W0 m ρ c (Proc.devRef .tc main_arg0))
      = m ((c.tc : Thread nD τ).loc main_arg0) := rfl
theorem src_leaf (c : Dev nD) (h1 h2 h3) :
    (TRef.of main_arg1 h1 h2 h3 : TRef sig ⟨S800000, .i32⟩).ofBuf (W0 m ρ c (Proc.devRef .tc main_arg1))
      = m ((c.tc : Thread nD τ).loc main_arg1) := rfl
theorem tgt_leaf (c : Dev nD) (h1 h2 h3) :
    (TRef.of main_arg2 h1 h2 h3 : TRef sig ⟨S800000, .i32⟩).ofBuf (W0 m ρ c (Proc.devRef .tc main_arg2))
      = m ((c.tc : Thread nD τ).loc main_arg2) := rfl
theorem src_root (h1 h2 h3) (X : FVec Ideal S800000x64 .f32) :
    TRef.toBuf (Val := Elt Ideal) (TRef.of main_v0 h1 h2 h3 : TRef sig ⟨S800000x64, .f32⟩) X = X := rfl
theorem tgt_root (h1 h2 h3) (X : FVec Ideal S800000x64 .f32) :
    TRef.toBuf (Val := Elt Ideal) (TRef.of main_v1 h1 h2 h3 : TRef sig ⟨S800000x64, .f32⟩) X = X := rfl

set_option maxHeartbeats 2000000 in
theorem entry_src (c : Dev nD) :
    W3 m ρ c (Proc.devRef .tc main_v0)
      = Take.take (F := Ideal) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v0) = _
  after_results_simp
  simp only [carried_back]
  rw [table_leaf m ρ c, src_leaf m ρ c]
  refine (src_root _ _ _ _).trans ?_
  unfold Take.take Take.inRange Take.rows Take.wrapped
  rfl

set_option maxHeartbeats 2000000 in
theorem entry_tgt (c : Dev nD) :
    W3 m ρ c (Proc.devRef .tc main_v1)
      = Take.take (F := Ideal) (m ((c.tc : Thread nD τ).loc main_arg0)) (m ((c.tc : Thread nD τ).loc main_arg2)) := by
  show StableHlo.after hostOps0_2 (StableHlo.after hostOps0_1 (StableHlo.after hostOps0 (W0 m ρ c))) (Proc.devRef .tc main_v1) = _
  after_results_simp
  simp only [carried_back]
  rw [table_leaf m ρ c, tgt_leaf m ρ c]
  refine (tgt_root _ _ _ _).trans ?_
  unfold Take.take Take.inRange Take.rows Take.wrapped
  rfl

set_option maxHeartbeats 2000000 in
theorem entry_idx (c : Dev nD) :
    W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl

/-- The first 64 columns of an [n, 128] array, as the unit-stride slice at offset (0, 0) prints it. -/
theorem slice_lo {n : Nat} (x : (⟨2, ![n, 128]⟩ : Shape).Idx → EReal) (h : (⟨2, ![n, 128]⟩ : Shape).Slices ![0, 0] ⟨2, ![n, 64]⟩) :
    extractStridedSlice (⟨2, ![n, 64]⟩ : Shape) ![0, 0] x h = Cert.Spec.loHalf x := by
  funext i
  refine extractStridedSlice_apply _ x h i (ix2 (i 0) (Cert.Spec.lo (i 1))) fun a => ?_
  match a with
  | ⟨0, _⟩ => exact (Nat.zero_add _).symm
  | ⟨1, _⟩ => exact (Nat.zero_add _).symm

/-- The last 64 columns, as the unit-stride slice at offset (0, 64) prints it. -/
theorem slice_hi {n : Nat} (x : (⟨2, ![n, 128]⟩ : Shape).Idx → EReal) (h : (⟨2, ![n, 128]⟩ : Shape).Slices ![0, 64] ⟨2, ![n, 64]⟩) :
    extractStridedSlice (⟨2, ![n, 64]⟩ : Shape) ![0, 64] x h = Cert.Spec.hiHalf x := by
  funext i
  refine extractStridedSlice_apply _ x h i (ix2 (i 0) (Cert.Spec.hi (i 1))) fun a => ?_
  match a with
  | ⟨0, _⟩ => exact (Nat.zero_add _).symm
  | ⟨1, _⟩ => rfl

/-- A vector of `n` entries cast to a [1, n] row reads the vector at the column. -/
theorem cast_row {n : Nat} (x : (⟨1, ![n]⟩ : Shape).Idx → EReal) (h : (⟨1, ![n]⟩ : Shape).ShapeCasts ⟨2, ![1, n]⟩) :
    shapeCast (⟨2, ![1, n]⟩ : Shape) x h = Cert.Spec.asRow x := by
  funext i
  obtain ⟨p, q, rfl⟩ : ∃ (p : Fin 1) (q : Fin n), i = ix2 p q := ⟨i 0, i 1, eq_ix2 i⟩
  exact shapeCast_a_1a_apply x h p q

theorem entry_fs (c : Dev nD) :
    W3 m ρ c (Proc.devRef .tc main_v2) = Cert.Spec.loHalf (m ((c.tc : Thread nD τ).loc main_arg3)) := by
  show StableHlo.after hostOps0_2 (W2 m ρ c) (Proc.devRef .tc main_v2) = _
  after_results
  exact slice_lo _ _

theorem entry_ft (c : Dev nD) :
    W3 m ρ c (Proc.devRef .tc main_v3) = Cert.Spec.hiHalf (m ((c.tc : Thread nD τ).loc main_arg3)) := by
  show StableHlo.after hostOps0_2 (W2 m ρ c) (Proc.devRef .tc main_v3) = _
  after_results
  exact slice_hi _ _

theorem entry_ws (c : Dev nD) :
    W3 m ρ c (Proc.devRef .tc main_v4) = Cert.Spec.loHalf (m ((c.tc : Thread nD τ).loc main_arg5)) := by
  show StableHlo.after hostOps0_2 (W2 m ρ c) (Proc.devRef .tc main_v4) = _
  after_results
  exact slice_lo _ _

theorem entry_wt (c : Dev nD) :
    W3 m ρ c (Proc.devRef .tc main_v5) = Cert.Spec.hiHalf (m ((c.tc : Thread nD τ).loc main_arg5)) := by
  show StableHlo.after hostOps0_2 (W2 m ρ c) (Proc.devRef .tc main_v5) = _
  after_results
  exact slice_hi _ _

theorem entry_fb (c : Dev nD) :
    W3 m ρ c (Proc.devRef .tc main_v6) = Cert.Spec.asRow (m ((c.tc : Thread nD τ).loc main_arg4)) := by
  show StableHlo.after hostOps0_2 (W2 m ρ c) (Proc.devRef .tc main_v6) = _
  after_results
  exact cast_row _ _

theorem entry_wb (c : Dev nD) :
    W3 m ρ c (Proc.devRef .tc main_v7) = Cert.Spec.asRow (m ((c.tc : Thread nD τ).loc main_arg6)) := by
  show StableHlo.after hostOps0_2 (W2 m ρ c) (Proc.devRef .tc main_v7) = _
  after_results
  exact cast_row _ _

/-! ## Through the regions -/

/-- An array the first region only reads leaves it as it entered. -/
theorem through0 (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

/-- The two looked-up row arrays, the halves of the two weight arrays and the two biases as rows: the eight arrays the
    specification is stated over, of the launch's arguments on core `c`. -/
abbrev srcRows (c : Dev nD) : FVec Ideal S800000x64 .f32 :=
  Take.rows (F := Ideal) (m ((c.tc : Thread nD τ).loc main_arg0)) (m ((c.tc : Thread nD τ).loc main_arg1))
abbrev tgtRows (c : Dev nD) : FVec Ideal S800000x64 .f32 :=
  Take.rows (F := Ideal) (m ((c.tc : Thread nD τ).loc main_arg0)) (m ((c.tc : Thread nD τ).loc main_arg2))

/-- The idealized kernel's result buffer, under the precondition: the closing operations over the specification's
    numerator and normaliser arrays. -/
theorem result_eq (hpre : Cert.Pre_KernelIdeal m) (c : Dev nD) :
    W6 m ρ c (Proc.devRef .tc main_v19)
      = closing
          (Cert.Spec.numer (srcRows m c) (tgtRows m c)
            (Cert.Spec.loHalf (m ((c.tc : Thread nD τ).loc main_arg3))) (Cert.Spec.hiHalf (m ((c.tc : Thread nD τ).loc main_arg3)))
            (Cert.Spec.asRow (m ((c.tc : Thread nD τ).loc main_arg4)))
            (Cert.Spec.loHalf (m ((c.tc : Thread nD τ).loc main_arg5))) (Cert.Spec.hiHalf (m ((c.tc : Thread nD τ).loc main_arg5)))
            (Cert.Spec.asRow (m ((c.tc : Thread nD τ).loc main_arg6))))
          (Cert.Spec.denom (srcRows m c) (tgtRows m c)
            (Cert.Spec.loHalf (m ((c.tc : Thread nD τ).loc main_arg5))) (Cert.Spec.hiHalf (m ((c.tc : Thread nD τ).loc main_arg5)))
            (Cert.Spec.asRow (m ((c.tc : Thread nD τ).loc main_arg6))))
          (m ((c.tc : Thread nD τ).loc main_arg2)) := by
  -- the arrays the first region is entered with
  have e0 : V3 m ρ c main_v0 = srcRows m c :=
    (entry_src m ρ c).trans (Take.take_eq_rows _ _ (Take.src_in_range m hpre c))
  have e1 : V3 m ρ c main_v1 = tgtRows m c :=
    (entry_tgt m ρ c).trans (Take.take_eq_rows _ _ (Take.tgt_in_range m hpre c))
  have e4 : V3 m ρ c main_v4 = _ := entry_ws m ρ c
  have e5 : V3 m ρ c main_v5 = _ := entry_wt m ρ c
  have e7 : V3 m ρ c main_v7 = _ := entry_wb m ρ c
  -- the arrays the second region is entered with
  have f0 : V4 m ρ c main_v0 = srcRows m c := (through0 m ρ c 0 rfl).trans e0
  have f1 : V4 m ρ c main_v1 = tgtRows m c := (through0 m ρ c 1 rfl).trans e1
  have f4 : V4 m ρ c main_v4 = _ := (through0 m ρ c 2 rfl).trans e4
  have f5 : V4 m ρ c main_v5 = _ := (through0 m ρ c 3 rfl).trans e5
  have f7 : V4 m ρ c main_v7 = _ := (through0 m ρ c 4 rfl).trans e7
  have f2 : V4 m ρ c main_v2 = _ := (W4_of_ne m ρ c main_v2 (by decide)).trans (entry_fs m ρ c)
  have f3 : V4 m ρ c main_v3 = _ := (W4_of_ne m ρ c main_v3 (by decide)).trans (entry_ft m ρ c)
  have f6 : V4 m ρ c main_v6 = _ := (W4_of_ne m ρ c main_v6 (by decide)).trans (entry_fb m ρ c)
  have f8 : V4 m ρ c main_v8 = fun _ => Cert.Spec.top (srcRows m c) (tgtRows m c)
      (Cert.Spec.loHalf (m ((c.tc : Thread nD τ).loc main_arg5))) (Cert.Spec.hiHalf (m ((c.tc : Thread nD τ).loc main_arg5)))
      (Cert.Spec.asRow (m ((c.tc : Thread nD τ).loc main_arg6))) := by
    refine (W4_arr m ρ c 5).trans ((Region0.top_array (V3 m ρ) c).trans ?_)
    rw [e0, e1, e4, e5, e7]
  -- the second region's two arrays, and the target indices, at the last boundary
  have g9 := (W5_arr m ρ c 9).trans (Region1.numer_array (V4 m ρ) c)
  have g10 := (W5_arr m ρ c 10).trans (Region1.denom_array (V4 m ρ) c)
  have gi : W5 m ρ c (Proc.devRef .tc main_arg2) = m ((c.tc : Thread nD τ).loc main_arg2) :=
    (W5_of_ne m ρ c main_arg2 (by decide)).trans ((W4_of_ne m ρ c main_arg2 (by decide)).trans (entry_idx m ρ c))
  rw [f0, f1, f2, f3, f6, f4, f5, f7, f8] at g9
  rw [f0, f1, f4, f5, f7, f8] at g10
  rw [result_closing]
  exact congr (congr (congrArg closing g9) g10) gi

end Cert.KernelIdeal.Result

end
-- ==== Proof.RefSide.lean ====
/-
  The reference, read against the specification.

  The reference concatenates the two gathered rows of an edge into one 128-entry row and contracts it with the transposed
  weights in one product. Entry by entry that product is a sum over 128 columns, the first 64 reading the source row against
  the first half of the weights and the last 64 the target row against the second half: the specification's two sums
  (`Cert.Spec.sum_halves`). Its maximum over the edge axis starts from negative infinity and folds `max`, which is the
  supremum of the scores. So the array it scatters for the numerator is `Cert.Spec.numer` and the one for the normaliser
  `Cert.Spec.denom`, of its two gathered row arrays and the halves of its weights.
-/
import proofs.«431220_j40956808135018_4_alg».proof.Proof.Gen.ReferenceIdeal.Read
import proofs.«431220_j40956808135018_4_alg».proof.Proof.Spec
import Idealize.ShloMosaic.PureOps.Reduce

noncomputable section

namespace Cert.RefSide

open Idealize.ShloMosaic Idealize.ShloMosaic.ValueIdx Cert.ReferenceIdeal Cert.ReferenceIdeal.Read

/-- The concatenated row reads the source row in its first 64 columns. -/
theorem v14_lo (x0 : (⟨S50000x64, .f32⟩ : BufTy).Contents (Elt Ideal)) (x1 x2 : (⟨S800000, .i32⟩ : BufTy).Contents (Elt Ideal))
    (e : Fin 800000) (k : Fin 64) :
    val_main_v14 (F := Ideal) x0 x1 x2 (ix2 e (Cert.Spec.lo k)) = val_main_v6 (F := Ideal) x0 x1 (ix2 e k) := by
  unfold val_main_v14
  exact concatenate_pair_apply_left (s₁ := S800000x64) (s₂ := S800000x64) 1 _ _ _ (ix2 e (Cert.Spec.lo k)) rfl (ix2 e k) (fun b => by
    match b with
    | ⟨0, _⟩ => rfl
    | ⟨1, _⟩ => rfl)

/-- The concatenated row reads the target row in its last 64 columns: column `64 + k` is the target row's column `k`. -/
theorem v14_hi (x0 : (⟨S50000x64, .f32⟩ : BufTy).Contents (Elt Ideal)) (x1 x2 : (⟨S800000, .i32⟩ : BufTy).Contents (Elt Ideal))
    (e : Fin 800000) (k : Fin 64) :
    val_main_v14 (F := Ideal) x0 x1 x2 (ix2 e (Cert.Spec.hi k)) = val_main_v13 (F := Ideal) x0 x2 (ix2 e k) := by
  unfold val_main_v14
  exact concatenate_pair_apply_right (s₁ := S800000x64) (s₂ := S800000x64) 1 _ _ _ (ix2 e (Cert.Spec.hi k)) rfl rfl (ix2 e k) (fun b hb => by
    match b, hb with
    | ⟨0, _⟩, _ => rfl
    | ⟨1, _⟩, hb => exact absurd rfl hb) (by show k.val + 64 = 64 + k.val; omega)

/-- The reference's biased score product at edge `e` is the specification's score: the sum over 128 columns splits into
    the source half against the first 64 score weights and the target half against the last 64; the transposed weight at
    (column, 0) is the weight row at (0, column); the twice-broadcast bias is the bias. -/
theorem score_eq (x0 : (⟨S50000x64, .f32⟩ : BufTy).Contents (Elt Ideal)) (x1 x2 : (⟨S800000, .i32⟩ : BufTy).Contents (Elt Ideal))
    (x5 : (⟨S1x128, .f32⟩ : BufTy).Contents (Elt Ideal)) (x6 : (⟨S1, .f32⟩ : BufTy).Contents (Elt Ideal)) (e : Fin 800000) :
    val_main_v25 (F := Ideal) x0 x1 x2 x5 x6 (ix2 e 0)
      = Cert.Spec.score (val_main_v6 (F := Ideal) x0 x1) (val_main_v13 (F := Ideal) x0 x2)
          (Cert.Spec.loHalf x5) (Cert.Spec.hiHalf x5) (Cert.Spec.asRow x6) e := by
  rw [val_main_v25_apply, val_main_v22_apply, val_main_v24_apply, val_main_v23_apply, Cert.Spec.sum_halves]
  unfold Cert.Spec.score Cert.Spec.loHalf Cert.Spec.hiHalf Cert.Spec.asRow
  simp only [Ideal.addf_def]
  refine congrArg₂ (· + ·) (congrArg₂ (· + ·) ?_ ?_) ?_
  · refine Finset.sum_congr rfl fun k _ => ?_
    have e1 : lidx_main_v22 (ix2 e 0) (Cert.Spec.lo k) = ix2 e (Cert.Spec.lo k) :=
      funext fun a => Fin.ext (by match a with | ⟨0, _⟩ => rfl | ⟨1, _⟩ => rfl)
    have e2 : idx_main_v21 (ridx_main_v22 (ix2 e 0) (Cert.Spec.lo k)) = ix2 0 (Cert.Spec.lo k) :=
      funext fun a => Fin.ext (by match a with | ⟨0, _⟩ => rfl | ⟨1, _⟩ => rfl)
    rw [val_main_v21_apply, e1, e2, v14_lo]
  · refine Finset.sum_congr rfl fun k _ => ?_
    have e1 : lidx_main_v22 (ix2 e 0) (Cert.Spec.hi k) = ix2 e (Cert.Spec.hi k) :=
      funext fun a => Fin.ext (by match a with | ⟨0, _⟩ => rfl | ⟨1, _⟩ => rfl)
    have e2 : idx_main_v21 (ridx_main_v22 (ix2 e 0) (Cert.Spec.hi k)) = ix2 0 (Cert.Spec.hi k) :=
      funext fun a => Fin.ext (by match a with | ⟨0, _⟩ => rfl | ⟨1, _⟩ => rfl)
    rw [val_main_v21_apply, e1, e2, v14_hi]
  · exact congrArg x6 (funext fun a => by match a with | ⟨0, _⟩ => rfl)

/-- Over the extended reals the ideal `maximumf` is `max`, so its fold from `⊥` is the supremum. -/
theorem fold_maximumf_bot {ι : Type} (s : Finset ι) (f : ι → EReal) :
    s.fold (FloatOps.maximumf (F := Ideal) (φ := .f32)) (⊥ : EReal) f = s.sup f := rfl

/-- The reference's maximum over the edge axis is the specification's largest score: `max` commutes and associates, so
    the reduction is a fold over the 800000 edge coordinates; it starts from negative infinity, which is `⊥`; the index
    over result position 0 with edge coordinate `e` inserted is (e, 0), where the reduced array is the score. -/
theorem top_eq (x0 : (⟨S50000x64, .f32⟩ : BufTy).Contents (Elt Ideal)) (x1 x2 : (⟨S800000, .i32⟩ : BufTy).Contents (Elt Ideal))
    (x5 : (⟨S1x128, .f32⟩ : BufTy).Contents (Elt Ideal)) (x6 : (⟨S1, .f32⟩ : BufTy).Contents (Elt Ideal)) :
    val_main_v26 (F := Ideal) x0 x1 x2 x5 x6 (ix1 0)
      = Cert.Spec.top (val_main_v6 (F := Ideal) x0 x1) (val_main_v13 (F := Ideal) x0 x2)
          (Cert.Spec.loHalf x5) (Cert.Spec.hiHalf x5) (Cert.Spec.asRow x6) := by
  have h : S800000x1.Reduces [0] S1 := by decide
  have hb : val_main_cst (F := Ideal) (Shape.Idx.first Gen.h_S_) = (⊥ : EReal) := by
    rw [val_main_cst_apply, Ideal.ofBits_def]; exact Cert.Spec.ofBits_neg_inf
  have hf : (val_main_v25 (F := Ideal) x0 x1 x2 x5 x6 ∘ h.lift (ix1 0))
      = Cert.Spec.score (val_main_v6 (F := Ideal) x0 x1) (val_main_v13 (F := Ideal) x0 x2)
          (Cert.Spec.loHalf x5) (Cert.Spec.hiHalf x5) (Cert.Spec.asRow x6) := funext fun e => by
    have hl : h.lift (ix1 0) e = ix2 e 0 :=
      funext fun a => Fin.ext (by match a with | ⟨0, _⟩ => rfl | ⟨1, _⟩ => rfl)
    show val_main_v25 (F := Ideal) x0 x1 x2 x5 x6 (h.lift (ix1 0) e) = _
    rw [hl]; exact score_eq x0 x1 x2 x5 x6 e
  unfold val_main_v26
  refine (Host.reduce_eq_fold_single (FloatOps.maximumf (F := Ideal) (φ := .f32)) _ _ _ h _ (ix1 0)).trans ?_
  rw [hb, hf]
  exact fold_maximumf_bot _ _

/-- The reference's weight of edge `e`: the exponential of its score minus the largest score (the maximum, broadcast
    twice, is read at position 0 whatever the edge). -/
theorem denom_at (x0 : (⟨S50000x64, .f32⟩ : BufTy).Contents (Elt Ideal)) (x1 x2 : (⟨S800000, .i32⟩ : BufTy).Contents (Elt Ideal))
    (x5 : (⟨S1x128, .f32⟩ : BufTy).Contents (Elt Ideal)) (x6 : (⟨S1, .f32⟩ : BufTy).Contents (Elt Ideal)) (e : Fin 800000) :
    val_main_v30 (F := Ideal) x0 x1 x2 x5 x6 (ix2 e 0)
      = Cert.Spec.weightAt (val_main_v6 (F := Ideal) x0 x1) (val_main_v13 (F := Ideal) x0 x2)
          (Cert.Spec.loHalf x5) (Cert.Spec.hiHalf x5) (Cert.Spec.asRow x6)
          (Cert.Spec.top (val_main_v6 (F := Ideal) x0 x1) (val_main_v13 (F := Ideal) x0 x2)
            (Cert.Spec.loHalf x5) (Cert.Spec.hiHalf x5) (Cert.Spec.asRow x6)) e := by
  have e1 : idx_main_v27 (idx_main_v28 (ix2 e (0 : Fin 1))) = ix1 0 :=
    funext fun a => by match a with | ⟨0, _⟩ => rfl
  rw [val_main_v30_apply, val_main_v29_apply, val_main_v28_apply, val_main_v27_apply, e1, top_eq, score_eq]
  simp only [Ideal.hostUnary_exp_def, Ideal.subf_def]
  rfl

/-- Every index of an [800000, 1] column is (e, 0): its second coordinate is below 1. -/
theorem eq_col (i : S800000x1.Idx) : ∃ e : Fin 800000, i = ix2 e 0 :=
  ⟨i 0, funext fun a => by
    match a with
    | ⟨0, _⟩ => rfl
    | ⟨1, _⟩ => exact Fin.ext (by have := idx2_lt1 i; show (i 1).val = 0; omega)⟩

/-- The reference's rectified value product at (e, j) is the specification's value: the 128-column sum splits as for the
    score, the transposed value weight at (column, j) is the weight at (j, column), the twice-broadcast bias is the bias
    at `j`, and the zero the maximum is taken against is the zero word. -/
theorem value_eq (x0 : (⟨S50000x64, .f32⟩ : BufTy).Contents (Elt Ideal)) (x1 x2 : (⟨S800000, .i32⟩ : BufTy).Contents (Elt Ideal))
    (x3 : (⟨S64x128, .f32⟩ : BufTy).Contents (Elt Ideal)) (x4 : (⟨S64, .f32⟩ : BufTy).Contents (Elt Ideal))
    (e : Fin 800000) (j : Fin 64) :
    val_main_v20 (F := Ideal) x0 x1 x2 x3 x4 (ix2 e j)
      = Cert.Spec.value (val_main_v6 (F := Ideal) x0 x1) (val_main_v13 (F := Ideal) x0 x2)
          (Cert.Spec.loHalf x3) (Cert.Spec.hiHalf x3) (Cert.Spec.asRow x4) e j := by
  rw [val_main_v20_apply, val_main_v19_apply, val_main_v16_apply, val_main_v18_apply, val_main_v17_apply,
    val_main_call0_v0_apply, val_main_call0_cst_apply, Cert.Spec.sum_halves]
  unfold Cert.Spec.value Cert.Spec.loHalf Cert.Spec.hiHalf Cert.Spec.asRow
  simp only [Ideal.addf_def, Ideal.maximumf_def, Ideal.ofBits_def, Ideal.ofBits_zero_f32]
  refine congrArg₂ max (congrArg₂ (· + ·) (congrArg₂ (· + ·) ?_ ?_) ?_) rfl
  · refine Finset.sum_congr rfl fun k _ => ?_
    have e1 : lidx_main_v16 (ix2 e j) (Cert.Spec.lo k) = ix2 e (Cert.Spec.lo k) :=
      funext fun a => Fin.ext (by match a with | ⟨0, _⟩ => rfl | ⟨1, _⟩ => rfl)
    have e2 : idx_main_v15 (ridx_main_v16 (ix2 e j) (Cert.Spec.lo k)) = ix2 j (Cert.Spec.lo k) :=
      funext fun a => Fin.ext (by match a with | ⟨0, _⟩ => rfl | ⟨1, _⟩ => rfl)
    rw [val_main_v15_apply, e1, e2, v14_lo]
  · refine Finset.sum_congr rfl fun k _ => ?_
    have e1 : lidx_main_v16 (ix2 e j) (Cert.Spec.hi k) = ix2 e (Cert.Spec.hi k) :=
      funext fun a => Fin.ext (by match a with | ⟨0, _⟩ => rfl | ⟨1, _⟩ => rfl)
    have e2 : idx_main_v15 (ridx_main_v16 (ix2 e j) (Cert.Spec.hi k)) = ix2 j (Cert.Spec.hi k) :=
      funext fun a => Fin.ext (by match a with | ⟨0, _⟩ => rfl | ⟨1, _⟩ => rfl)
    rw [val_main_v15_apply, e1, e2, v14_hi]
  · exact congrArg x4 (funext fun a => by match a with | ⟨0, _⟩ => rfl)

/-- The weight column the reference multiplies the values by and scatters for the normaliser is the specification's. -/
theorem denom_eq (x0 : (⟨S50000x64, .f32⟩ : BufTy).Contents (Elt Ideal)) (x1 x2 : (⟨S800000, .i32⟩ : BufTy).Contents (Elt Ideal))
    (x5 : (⟨S1x128, .f32⟩ : BufTy).Contents (Elt Ideal)) (x6 : (⟨S1, .f32⟩ : BufTy).Contents (Elt Ideal)) :
    val_main_v30 (F := Ideal) x0 x1 x2 x5 x6
      = Cert.Spec.denom (val_main_v6 (F := Ideal) x0 x1) (val_main_v13 (F := Ideal) x0 x2)
          (Cert.Spec.loHalf x5) (Cert.Spec.hiHalf x5) (Cert.Spec.asRow x6) := by
  funext i
  obtain ⟨e, rfl⟩ := eq_col i
  exact denom_at x0 x1 x2 x5 x6 e

/-- The array the reference scatters for the numerator is the specification's. -/
theorem numer_eq (x0 : (⟨S50000x64, .f32⟩ : BufTy).Contents (Elt Ideal)) (x1 x2 : (⟨S800000, .i32⟩ : BufTy).Contents (Elt Ideal))
    (x3 : (⟨S64x128, .f32⟩ : BufTy).Contents (Elt Ideal)) (x4 : (⟨S64, .f32⟩ : BufTy).Contents (Elt Ideal))
    (x5 : (⟨S1x128, .f32⟩ : BufTy).Contents (Elt Ideal)) (x6 : (⟨S1, .f32⟩ : BufTy).Contents (Elt Ideal)) :
    val_main_v37 (F := Ideal) x0 x1 x2 x3 x4 x5 x6
      = Cert.Spec.numer (val_main_v6 (F := Ideal) x0 x1) (val_main_v13 (F := Ideal) x0 x2)
          (Cert.Spec.loHalf x3) (Cert.Spec.hiHalf x3) (Cert.Spec.asRow x4)
          (Cert.Spec.loHalf x5) (Cert.Spec.hiHalf x5) (Cert.Spec.asRow x6) := by
  funext i
  obtain ⟨e, j, rfl⟩ : ∃ (e : Fin 800000) (j : Fin 64), i = ix2 e j := ⟨i 0, i 1, eq_ix2 i⟩
  have e1 : idx_main_v36 (ix2 e j) = ix2 e 0 :=
    funext fun a => Fin.ext (by match a with | ⟨0, _⟩ => rfl | ⟨1, _⟩ => rfl)
  rw [val_main_v37_apply, val_main_v36_apply, e1, denom_at, value_eq]
  simp only [Ideal.mulf_def]
  rfl

end Cert.RefSide

end
-- ==== Proof.lean ====
/-
  The certificate's claims, assembled.

  The kernel looks up the node features at each edge's source and target, scores every edge (a 128-entry inner
  product, computed as two 64-entry halves), takes the largest score over all 800000 edges in a first pass over 400
  blocks of 2000 edges, and in a second pass forms each edge's rectified value row times the exponential of its
  score shifted by that largest score, and that weight itself; the closing host operations sum both onto the target
  nodes and divide. The reference does the same with one concatenated 128-entry product and one maximum over the
  edge axis. Over the extended reals the two are one function of the arguments (`Cert.Spec`): a sum over 128 columns is
  the sum of its two halves, and the largest of the blocks' largest scores is the largest score; neither step needs a
  finite input. What does need a hypothesis is the lookup: the kernel's lookup fills a row whose index is outside the
  table with a pattern, where the reference's indexing clamps the index; the precondition's two index conjuncts
  (every source and target index in `[0, 50000)`) make both the same plain gather.

  The three frames: the two kernel programs' are the generated frame certificates; the reference's is its generated run
  with the result dropped. The idealization rewrote no operation, so `preserves` asks nothing. `algebraic`: the
  idealized kernel's run with its result named (the launch theorem over @main's segments, its last boundary's contents
  read at the result buffer) ends at `closing (numer …) (denom …) tgt` (`Cert.KernelIdeal.Result.result_eq`); the
  reference's generated run ends at the same operations over its own two arrays, which are the specification's
  (`Cert.RefSide.numer_eq`, `denom_eq`), of arguments that agree.
-/
import proofs.«431220_j40956808135018_4_alg».proof.Defs
import proofs.«431220_j40956808135018_4_alg».proof.Proof.Gen.Kernel
import proofs.«431220_j40956808135018_4_alg».proof.Proof.Gen.Kernel.Skeleton
import proofs.«431220_j40956808135018_4_alg».proof.Proof.Gen.Kernel.Launch
import proofs.«431220_j40956808135018_4_alg».proof.Proof.Gen.Kernel.Points
import proofs.«431220_j40956808135018_4_alg».proof.Proof.Gen.Kernel.Frame
import proofs.«431220_j40956808135018_4_alg».proof.Proof.Gen.KernelIdeal
import proofs.«431220_j40956808135018_4_alg».proof.Proof.Gen.KernelIdeal.Skeleton
import proofs.«431220_j40956808135018_4_alg».proof.Proof.Gen.KernelIdeal.Launch
import proofs.«431220_j40956808135018_4_alg».proof.Proof.Gen.KernelIdeal.Points
import proofs.«431220_j40956808135018_4_alg».proof.Proof.Gen.KernelIdeal.Frame
import proofs.«431220_j40956808135018_4_alg».proof.Proof.Gen.ReferenceIdeal
import proofs.«431220_j40956808135018_4_alg».proof.Proof.Gen.ReferenceIdeal.Run
import proofs.«431220_j40956808135018_4_alg».proof.Proof.Gen.ReferenceIdeal.Read
import proofs.«431220_j40956808135018_4_alg».proof.Proof.Gen.Pre_finite_inputs
import proofs.«431220_j40956808135018_4_alg».proof.Proof.KernelValue
import proofs.«431220_j40956808135018_4_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## The reference's terms in the kernel's names -/

/-- The reference's gather of the source rows is the kernel's plain gather: the same operation over the same wrapped index. -/
theorem ref_src_rows (x0 : (⟨Cert.ReferenceIdeal.S50000x64, .f32⟩ : BufTy).Contents (Elt Ideal))
    (x1 : (⟨Cert.ReferenceIdeal.S800000, .i32⟩ : BufTy).Contents (Elt Ideal)) :
    Cert.ReferenceIdeal.Read.val_main_v6 (F := Ideal) x0 x1 = Cert.KernelIdeal.Take.rows (F := Ideal) x0 x1 := rfl

/-- Likewise the target rows. -/
theorem ref_tgt_rows (x0 : (⟨Cert.ReferenceIdeal.S50000x64, .f32⟩ : BufTy).Contents (Elt Ideal))
    (x2 : (⟨Cert.ReferenceIdeal.S800000, .i32⟩ : BufTy).Contents (Elt Ideal)) :
    Cert.ReferenceIdeal.Read.val_main_v13 (F := Ideal) x0 x2 = Cert.KernelIdeal.Take.rows (F := Ideal) x0 x2 := rfl

/-- The reference's last operations — the two sums onto the target nodes, the small constant, the division — are the
    kernel's closing operations over the reference's own numerator and weight arrays. -/
theorem ref_closing (x0 : (⟨Cert.ReferenceIdeal.S50000x64, .f32⟩ : BufTy).Contents (Elt Ideal))
    (x1 x2 : (⟨Cert.ReferenceIdeal.S800000, .i32⟩ : BufTy).Contents (Elt Ideal))
    (x3 : (⟨Cert.ReferenceIdeal.S64x128, .f32⟩ : BufTy).Contents (Elt Ideal)) (x4 : (⟨Cert.ReferenceIdeal.S64, .f32⟩ : BufTy).Contents (Elt Ideal))
    (x5 : (⟨Cert.ReferenceIdeal.S1x128, .f32⟩ : BufTy).Contents (Elt Ideal)) (x6 : (⟨Cert.ReferenceIdeal.S1, .f32⟩ : BufTy).Contents (Elt Ideal)) :
    Cert.ReferenceIdeal.Read.val_main_v42 (F := Ideal) x0 x1 x2 x3 x4 x5 x6
      = Cert.KernelIdeal.Result.closing (Cert.ReferenceIdeal.Read.val_main_v37 (F := Ideal) x0 x1 x2 x3 x4 x5 x6)
          (Cert.ReferenceIdeal.Read.val_main_v30 (F := Ideal) x0 x1 x2 x5 x6) x2 := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨_, (θ_run Cert.KernelIdeal.defs _ _).mono
    (fun _ h c => ⟨(h c).1.trans (Cert.KernelIdeal.Result.result_eq m ρ hpre c), (h c).2⟩)
    (Cert.KernelIdeal.Gen.run_result m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v42_eq, ref_closing, Cert.RefSide.numer_eq, Cert.RefSide.denom_eq,
    ref_src_rows, ref_tgt_rows, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
